-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part7 {F : FTy → Type} [FloatOps F] (main_arg25 : FVec F S1024 .f32) (main_v118 : IVec S_ 1) (main_v119 : FVec F S1024x1024 .f32) : IVec S_ 1 :=
  let main_cst_46 : FVec F S_ .f32 := constant S_ .f32 0x7F800000#32
  let main_v120 : FVec F S1024x1024 .f32 := broadcastInDim S1024x1024 ![] bcast_S_S1024x1024 main_cst_46
  let main_v121 : IVec S1024x1024 1 := cmpf .olt main_v119 main_v120
  let main_c_47 : IVec S_ 1 := constantI S_ 1 1#1
  let main_v122 : IVec S_ 1 := (fun x v => Host.reduce IntOp.andi x v reducesTo_S1024x1024_S_d0_1 h_S_) main_v121 main_c_47
  let main_v123 : IVec S_ 1 := andi main_v118 main_v122
  let main_v124 : FVec F S1024 .f32 := Host.absf main_arg25
  let main_cst_48 : FVec F S_ .f32 := constant S_ .f32 0x7F800000#32
  let main_v125 : FVec F S1024 .f32 := broadcastInDim S1024 ![] bcast_S_S1024 main_cst_48
  let main_v126 : IVec S1024 1 := cmpf .olt main_v124 main_v125
  let main_c_49 : IVec S_ 1 := constantI S_ 1 1#1
  let main_v127 : IVec S_ 1 := (fun x v => Host.reduce IntOp.andi x v reducesTo_S1024_S_d0 h_S_) main_v126 main_c_49
  let main_v128 : IVec S_ 1 := andi main_v123 main_v127
  main_v128

def fn_part6 {F : FTy → Type} [FloatOps F] (main_arg21 : FVec F S1024x1024 .f32) (main_arg22 : FVec F S1024 .f32) (main_arg23 : FVec F S1024 .f32) (main_arg24 : FVec F S1024x1024 .f32) (main_arg25 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024x1024 .f32 := Host.absf main_arg21
  let main_cst_40 : FVec F S_ .f32 := constant S_ .f32 0x7F800000#32
  let main_v105 : FVec F S1024x1024 .f32 := broadcastInDim S1024x1024 ![] bcast_S_S1024x1024 main_cst_40
  let main_v106 : IVec S1024x1024 1 := cmpf .olt main_v104 main_v105
  let main_c_41 : IVec S_ 1 := constantI S_ 1 1#1
  let main_v107 : IVec S_ 1 := (fun x v => Host.reduce IntOp.andi x v reducesTo_S1024x1024_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S1024 .f32 := Host.absf main_arg23
  let main_cst_44 : FVec F S_ .f32 := constant S_ .f32 0x7F800000#32
  let main_v115 : FVec F S1024 .f32 := broadcastInDim S1024 ![] bcast_S_S1024 main_cst_44
  let main_v116 : IVec S1024 1 := cmpf .olt main_v114 main_v115
  let main_c_45 : IVec S_ 1 := constantI S_ 1 1#1
  let main_v117 : IVec S_ 1 := (fun x v => Host.reduce IntOp.andi x v reducesTo_S1024_S_d0 h_S_) main_v116 main_c_45
  let main_v118 : IVec S_ 1 := andi main_v113 main_v117
  let main_v119 : FVec F S1024x1024 .f32 := Host.absf main_arg24
  fn_part7 (F := F) main_arg25 main_v118 main_v119

def fn_part5 {F : FTy → Type} [FloatOps F] (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S1024x1024 .f32) (main_arg12 : FVec F S1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S1024x1024 .f32) (main_arg5 : FVec F S1024 .f32) (main_arg6 : FVec F S1024x1024 .f32) (main_arg7 : FVec F S1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S128x1024 : Shape := ⟨2, ![128, 1024]⟩
abbrev S128x4096 : Shape := ⟨2, ![128, 4096]⟩
abbrev S1x4096 : Shape := ⟨2, ![1, 4096]⟩
abbrev S1x1024 : Shape := ⟨2, ![1, 1024]⟩

abbrev nBuf : Space → Nat
  | .hbm => 44
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024, .f32⟩
  | .hbm, ⟨24, _⟩ => ⟨S1024x1024, .f32⟩
  | .hbm, ⟨25, _⟩ => ⟨S1024, .f32⟩
  | .hbm, ⟨26, _⟩ => ⟨S1024x4096, .f32⟩
  | .hbm, ⟨27, _⟩ => ⟨S1024x4096, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S4096, .f32⟩
  | .hbm, ⟨37, _⟩ => ⟨S1024x4096, .bf16⟩
  | .hbm, ⟨38, _⟩ => ⟨S1024x4096, .bf16⟩
  | .hbm, ⟨39, _⟩ => ⟨S1024x1024, .bf16⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x4096, .bf16⟩
  | .local _ .vmem, ⟨9, _⟩ => ⟨S1024x4096, .bf16⟩
  | .local _ .vmem, ⟨10, _⟩ => ⟨S4096, .f32⟩
  | .local _ .vmem, ⟨11, _⟩ => ⟨S1024x1024, .bf16⟩
  | .local _ .vmem, ⟨12, _⟩ => ⟨S1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_v14_2 : Ref sig .tc := ⟨.hbm, 42, rfl⟩
abbrev main_v14_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  dot_S128x1024_S1024x4096_S128x4096_1_0_0_1_n_n_wf : DotDims.WF S128x1024 S1024x4096 S128x4096 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S16384x1024.size a
  hwx0_3 : ∀ i : grid0.Coords, EltTy.bits .f32 = 32 ∨ (Rect.block (s := S16384x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S4096.size a
  hwx0_6 : ∀ i : grid0.Coords, EltTy.bits .f32 = 32 ∨ (Rect.block (s := S4096) S4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S16384x1024.size a
  hwx0_9 : ∀ i : grid0.Coords, EltTy.bits .f32 = 32 ∨ (Rect.block (s := S16384x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S16384x1024.size a
  hwx0_10 : ∀ i : grid0.Coords, EltTy.bits .f32 = 32 ∨ (Rect.block (s := S16384x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S16384x1024.size a
  hwx0_11 : ∀ i : grid0.Coords, EltTy.bits .f32 = 32 ∨ (Rect.block (s := S16384x1024) S128x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1024.size a ≤ S16384x1024.size a
  hwx0_12 : ∀ i : grid0.Coords, EltTy.bits .f32 = 32 ∨ (Rect.block (s := S16384x1024) S128x1024.size (cc0_transform_12 i) (hinb0_12 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg25) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14_0) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_1) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14_2) S128x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14_3) S128x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024, .f32⟩
  | .hbm, ⟨24, _⟩ => ⟨S1024x1024, .f32⟩
  | .hbm, ⟨25, _⟩ => ⟨S1024, .f32⟩
  | .hbm, ⟨26, _⟩ => ⟨S1024x4096, .f32⟩
  | .hbm, ⟨27, _⟩ => ⟨S1024x4096, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst : Ref sig .tc := ⟨.hbm, 51, rfl⟩
abbrev main_v25 : Ref sig .tc := ⟨.hbm, 52, rfl⟩
abbrev main_v26 : Ref sig .tc := ⟨.hbm, 53, rfl⟩
abbrev main_cst_0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_3 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x4096_S16384x4096_1_0_0_1_n_n_wf : DotDims.WF S16384x1024 S1024x4096 S16384x4096 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelEntry.lean ====
/- What the kernel's region finds when it is entered, and what a run of it gives back.

   @main first builds, on the host, the two concatenated weight matrices, the concatenated bias (each gate's three
   biases added in order) and the three narrowed copies; none of these fourteen operations writes an argument array,
   so the region meets every argument as launched. The nine input windows then hold, at every grid point, the block
   of their array that the point's index map names: the four activations' 128-row slab of the point, the four
   resident operands whole (fetched once, at the first point, their index never moving) and the output bias whole.
   From any run to the launch theorem's post the frame follows: a staged argument is read back through its window,
   every other one through the list of buffers no window stages. -/
import proofs.«129257_j68642167325024_1_alg».proof.Proof.Gen.Kernel.Launch
import proofs.«129257_j68642167325024_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents carried through the host operations. -/
abbrev V (c : Dev nD) (b : Ref sig .tc) : Buf (Elt F) ((c : Thread nD τ).loc b) :=
  StableHlo.after hostOps0 (fun b => m (c, b)) b

/-- None of the host operations allocates a buffer at contents nobody chooses. -/
theorem hostOps0_fresh : (hostOps0 : List (HloOp τ sig (Elt F))).Forall fun op => op.fresh = ∅ := by
  simp only [List.Forall]; repeat' constructor

/-- @main is its host operations followed by the one region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 25: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its index has not moved), for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its index has not moved), for any proof data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its index has not moved), for any proof data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its index has not moved), for any proof data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its index has not moved), for any proof data over the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its index has not moved), for any proof data over the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its index has not moved), for any proof data over the region-entry arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its index has not moved), for any proof data over the region-entry arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its index has not moved), for any proof data over the region-entry arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- For any proof data over the region-entry arrays, a run to the launch theorem's post — every window's array at what
    the proof data computes, every other buffer as the region found it — leaves each of the 26 arguments as launched:
    the five staged ones (the activations and the output bias) are inputs, so their arrays end as they began; the
    others are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).1 8).trans (((dats 0 c).arrAt_in 8 rfl _).trans ((hA c 8).trans (V_main_arg25 m c)))⟩) h

end Cert.Kernel.Fr

end
-- ==== Proof.KernelBody.lean ====
/- The kernel's body as one step of separation logic.

   On whole staging buffers — the nine inputs' at contents it only reads, the four outputs' at anything — the body
   runs to its end, leaves every input as it was, and leaves each output buffer at its one whole-block store:
   the new cell state `f·c + i·z`, the new normaliser `f·n + i`, the new hidden state `o·tanh(C / (n + ε))`
   and the projection of that hidden state plus the output bias, each a pure term of the loaded blocks
   (the gates `z, i, f, o` are the four 1024-column slices of the one pre-activation block). The body also
   loads each output buffer before it stores into it; those four values are used by nothing. -/
import proofs.«129257_j68642167325024_1_alg».proof.Proof.Gen.Kernel.Skeleton
import proofs.«129257_j68642167325024_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and store takes its buffer whole -/

abbrev rA : Rect S128x1024 := Rect.unit (s := S128x1024) ![0, 0] S128x1024.size inb_S128x1024_S128x1024_0_0
abbrev rB : Rect S1024x4096 := Rect.unit (s := S1024x4096) ![0, 0] S1024x4096.size inb_S1024x4096_S1024x4096_0_0
abbrev rC : Rect S4096 := Rect.unit (s := S4096) ![0] S4096.size inb_S4096_S4096_0
abbrev rD : Rect S1024x1024 := Rect.unit (s := S1024x1024) ![0, 0] S1024x1024.size inb_S1024x1024_S1024x1024_0_0
abbrev rE : Rect S1024 := Rect.unit (s := S1024) ![0] S1024.size inb_S1024_S1024_0

/-! ## What the body leaves in each output buffer, from the input buffers' contents -/

/-- The projection's buffer: the hidden state times the output weights, plus the output bias along the rows. -/
def outY (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) : Vec F S128x1024 .f32 :=
  View.canon [⟨rA, k0_pay1 (k0_pay8 (View.ld x0 rA) (View.ld x1 rA) (View.ld x4 rB) (View.ld x5 rB) (View.ld x6 rC) (View.ld x2 rA) (View.ld x3 rA) (View.ld x7 rD)) (View.ld x8 rE)⟩]
/-- The hidden state's buffer: the output gate times `tanh` of the cell state over the shifted normaliser. -/
def outH (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) : Vec F S128x1024 .f32 :=
  View.canon [⟨rA, k0_pay7 (View.ld x0 rA) (View.ld x1 rA) (View.ld x4 rB) (View.ld x5 rB) (View.ld x6 rC) (View.ld x2 rA) (View.ld x3 rA)⟩]
/-- The cell state's buffer: forget gate times the old cell state, plus input gate times the candidate. -/
def outC (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) : Vec F S128x1024 .f32 :=
  View.canon [⟨rA, k0_pay5 (View.ld x0 rA) (View.ld x1 rA) (View.ld x4 rB) (View.ld x5 rB) (View.ld x6 rC) (View.ld x2 rA)⟩]
/-- The normaliser's buffer: forget gate times the old normaliser, plus the input gate. -/
def outN (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) : Vec F S128x1024 .f32 :=
  View.canon [⟨rA, k0_pay6 (View.ld x0 rA) (View.ld x1 rA) (View.ld x4 rB) (View.ld x5 rB) (View.ld x6 rC) (View.ld x3 rA)⟩]

/-- One whole-block store covers its buffer. -/
theorem coverA (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y

/-! ## The body's triple -/

set_option maxHeartbeats 4000000 in
/-- The body, on whole buffers with the inputs at `x0 … x8` and the outputs at anything, reaches any continuation
    that holds once the inputs are back as they were and the outputs are at `outY`, `outH`, `outC`, `outN`. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S4096 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole)
    (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outY x0 x1 x2 x3 x4 x5 x6 x7 x8) ∗ owns (c : Thread nD τ) arg11 fullShare (outH x0 x1 x2 x3 x4 x5 x6 x7 x8) ∗ owns (c : Thread nD τ) arg12 fullShare (outC x0 x1 x2 x3 x4 x5 x6 x7 x8) ∗ owns (c : Thread nD τ) arg13 fullShare (outN x0 x1 x2 x3 x4 x5 x6 x7 x8)) -∗ K ⟨⟩))
      ⊢ wp frame (wpE (defs₀ (F := F)) Variants.none c none) E (cc0__sxlstm_kernel i arg1 harg1 arg2 harg2 arg3 harg3 arg4 harg4 arg5 harg5 arg6 harg6 arg7 harg7 arg8 harg8 arg9 harg9 arg10 harg10 arg11 harg11 arg12 harg12 arg13 harg13) K := by
  simp only [cc0__sxlstm_kernel_eq_skeleton]; unfold cc0__sxlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverA _)
  isplitl [H10]
  · iexists _; isplitr
    swap; · iexact H10
    ipureintro
    try dsimp only
    exact View.read_writes_eq_canon _ _ _ (coverA _)
  isplitl [H11]
  · iexists _; isplitr
    swap; · iexact H11
    ipureintro
    try dsimp only
    exact View.read_writes_eq_canon _ _ _ (coverA _)
  iexists _; isplitr
  swap; · iexact H12
  ipureintro
  try dsimp only
  exact View.read_writes_eq_canon _ _ _ (coverA _)

end Cert.Kernel.Fr

end
-- ==== Proof.KernelRun.lean ====
/- The kernel's frame, and its run with every output array named.

   The proof data say what each window's staging buffer holds after the body at a grid point: an input's its block,
   an output's the body's one store computed from the nine input blocks of that point. With the body's triple this
   is the launch theorem's obligation at every point; the launch theorem then runs @main — the host operations, then
   all 128 points with their fetches and write-backs — to a state where each output array is what the write-backs
   assemble and everything else is as the region found it. -/
import proofs.«129257_j68642167325024_1_alg».proof.Proof.KernelEntry
import proofs.«129257_j68642167325024_1_alg».proof.Proof.KernelBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer at its block and
    each output buffer at the body's store over the point's input blocks; nothing of its own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outY (iblk m c 0 t) (iblk m c 1 t) (iblk m c 2 t) (iblk m c 3 t) (iblk m c 4 t) (iblk m c 5 t) (iblk m c 6 t) (iblk m c 7 t) (iblk m c 8 t)
    | ⟨10, _⟩ => outH (iblk m c 0 t) (iblk m c 1 t) (iblk m c 2 t) (iblk m c 3 t) (iblk m c 4 t) (iblk m c 5 t) (iblk m c 6 t) (iblk m c 7 t) (iblk m c 8 t)
    | ⟨11, _⟩ => outC (iblk m c 0 t) (iblk m c 1 t) (iblk m c 2 t) (iblk m c 3 t) (iblk m c 4 t) (iblk m c 5 t) (iblk m c 6 t) (iblk m c 7 t) (iblk m c 8 t)
    | ⟨12, _⟩ => outN (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outY (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = outH (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = outC (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = outN (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the body's triple applies; what the kernel does
    not touch passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch theorem's obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main ends, without a fault, with every window's
    array at what the proof data assemble and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, faults nowhere, and leaves its 26 arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.Kernel.Fr

end
-- ==== Proof.IdealEntry.lean ====
/- What the kernel's region finds when it is entered, and what a run of it gives back.

   @main first builds, on the host, the two concatenated weight matrices, the concatenated bias (each gate's three
   biases added in order) and the three narrowed copies; none of these fourteen operations writes an argument array,
   so the region meets every argument as launched. The nine input windows then hold, at every grid point, the block
   of their array that the point's index map names: the four activations' 128-row slab of the point, the four
   resident operands whole (fetched once, at the first point, their index never moving) and the output bias whole.
   From any run to the launch theorem's post the frame follows: a staged argument is read back through its window,
   every other one through the list of buffers no window stages. -/
import proofs.«129257_j68642167325024_1_alg».proof.Proof.Gen.KernelIdeal.Launch
import proofs.«129257_j68642167325024_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents carried through the host operations. -/
abbrev V (c : Dev nD) (b : Ref sig .tc) : Buf (Elt F) ((c : Thread nD τ).loc b) :=
  StableHlo.after hostOps0 (fun b => m (c, b)) b

/-- None of the host operations allocates a buffer at contents nobody chooses. -/
theorem hostOps0_fresh : (hostOps0 : List (HloOp τ sig (Elt F))).Forall fun op => op.fresh = ∅ := by
  simp only [List.Forall]; repeat' constructor

/-- @main is its host operations followed by the one region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 25: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its index has not moved), for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its index has not moved), for any proof data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its index has not moved), for any proof data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its index has not moved), for any proof data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its index has not moved), for any proof data over the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its index has not moved), for any proof data over the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its index has not moved), for any proof data over the region-entry arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its index has not moved), for any proof data over the region-entry arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its index has not moved), for any proof data over the region-entry arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- For any proof data over the region-entry arrays, a run to the launch theorem's post — every window's array at what
    the proof data computes, every other buffer as the region found it — leaves each of the 26 arguments as launched:
    the five staged ones (the activations and the output bias) are inputs, so their arrays end as they began; the
    others are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).1 8).trans (((dats 0 c).arrAt_in 8 rfl _).trans ((hA c 8).trans (V_main_arg25 m c)))⟩) h

end Cert.KernelIdeal.Fr

end
-- ==== Proof.IdealBody.lean ====
/- The kernel's body as one step of separation logic.

   On whole staging buffers — the nine inputs' at contents it only reads, the four outputs' at anything — the body
   runs to its end, leaves every input as it was, and leaves each output buffer at its one whole-block store:
   the new cell state `f·c + i·z`, the new normaliser `f·n + i`, the new hidden state `o·tanh(C / (n + ε))`
   and the projection of that hidden state plus the output bias, each a pure term of the loaded blocks
   (the gates `z, i, f, o` are the four 1024-column slices of the one pre-activation block). The body also
   loads each output buffer before it stores into it; those four values are used by nothing. -/
import proofs.«129257_j68642167325024_1_alg».proof.Proof.Gen.KernelIdeal.Skeleton
import proofs.«129257_j68642167325024_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and store takes its buffer whole -/

abbrev rA : Rect S128x1024 := Rect.unit (s := S128x1024) ![0, 0] S128x1024.size inb_S128x1024_S128x1024_0_0
abbrev rB : Rect S1024x4096 := Rect.unit (s := S1024x4096) ![0, 0] S1024x4096.size inb_S1024x4096_S1024x4096_0_0
abbrev rC : Rect S4096 := Rect.unit (s := S4096) ![0] S4096.size inb_S4096_S4096_0
abbrev rD : Rect S1024x1024 := Rect.unit (s := S1024x1024) ![0, 0] S1024x1024.size inb_S1024x1024_S1024x1024_0_0
abbrev rE : Rect S1024 := Rect.unit (s := S1024) ![0] S1024.size inb_S1024_S1024_0

/-! ## What the body leaves in each output buffer, from the input buffers' contents -/

/-- The projection's buffer: the hidden state times the output weights, plus the output bias along the rows. -/
def outY (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) : Vec F S128x1024 .f32 :=
  View.canon [⟨rA, k0_pay1 (k0_pay8 (View.ld x0 rA) (View.ld x1 rA) (View.ld x4 rB) (View.ld x5 rB) (View.ld x6 rC) (View.ld x2 rA) (View.ld x3 rA) (View.ld x7 rD)) (View.ld x8 rE)⟩]
/-- The hidden state's buffer: the output gate times `tanh` of the cell state over the shifted normaliser. -/
def outH (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) : Vec F S128x1024 .f32 :=
  View.canon [⟨rA, k0_pay7 (View.ld x0 rA) (View.ld x1 rA) (View.ld x4 rB) (View.ld x5 rB) (View.ld x6 rC) (View.ld x2 rA) (View.ld x3 rA)⟩]
/-- The cell state's buffer: forget gate times the old cell state, plus input gate times the candidate. -/
def outC (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) : Vec F S128x1024 .f32 :=
  View.canon [⟨rA, k0_pay5 (View.ld x0 rA) (View.ld x1 rA) (View.ld x4 rB) (View.ld x5 rB) (View.ld x6 rC) (View.ld x2 rA)⟩]
/-- The normaliser's buffer: forget gate times the old normaliser, plus the input gate. -/
def outN (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) : Vec F S128x1024 .f32 :=
  View.canon [⟨rA, k0_pay6 (View.ld x0 rA) (View.ld x1 rA) (View.ld x4 rB) (View.ld x5 rB) (View.ld x6 rC) (View.ld x3 rA)⟩]

/-- One whole-block store covers its buffer. -/
theorem coverA (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y

/-! ## The body's triple -/

set_option maxHeartbeats 4000000 in
/-- The body, on whole buffers with the inputs at `x0 … x8` and the outputs at anything, reaches any continuation
    that holds once the inputs are back as they were and the outputs are at `outY`, `outH`, `outC`, `outN`. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S4096 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole)
    (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S4096 .f32) (x7 : Vec F S1024x1024 .bf16) (x8 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (outY x0 x1 x2 x3 x4 x5 x6 x7 x8) ∗ owns (c : Thread nD τ) arg11 fullShare (outH x0 x1 x2 x3 x4 x5 x6 x7 x8) ∗ owns (c : Thread nD τ) arg12 fullShare (outC x0 x1 x2 x3 x4 x5 x6 x7 x8) ∗ owns (c : Thread nD τ) arg13 fullShare (outN x0 x1 x2 x3 x4 x5 x6 x7 x8)) -∗ K ⟨⟩))
      ⊢ wp frame (wpE (defs₀ (F := F)) Variants.none c none) E (cc0__sxlstm_kernel i arg1 harg1 arg2 harg2 arg3 harg3 arg4 harg4 arg5 harg5 arg6 harg6 arg7 harg7 arg8 harg8 arg9 harg9 arg10 harg10 arg11 harg11 arg12 harg12 arg13 harg13) K := by
  simp only [cc0__sxlstm_kernel_eq_skeleton]; unfold cc0__sxlstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (coverA _)
  isplitl [H10]
  · iexists _; isplitr
    swap; · iexact H10
    ipureintro
    try dsimp only
    exact View.read_writes_eq_canon _ _ _ (coverA _)
  isplitl [H11]
  · iexists _; isplitr
    swap; · iexact H11
    ipureintro
    try dsimp only
    exact View.read_writes_eq_canon _ _ _ (coverA _)
  iexists _; isplitr
  swap; · iexact H12
  ipureintro
  try dsimp only
  exact View.read_writes_eq_canon _ _ _ (coverA _)

end Cert.KernelIdeal.Fr

end
-- ==== Proof.IdealRun.lean ====
/- The kernel's frame, and its run with every output array named.

   The proof data say what each window's staging buffer holds after the body at a grid point: an input's its block,
   an output's the body's one store computed from the nine input blocks of that point. With the body's triple this
   is the launch theorem's obligation at every point; the launch theorem then runs @main — the host operations, then
   all 128 points with their fetches and write-backs — to a state where each output array is what the write-backs
   assemble and everything else is as the region found it. -/
import proofs.«129257_j68642167325024_1_alg».proof.Proof.IdealEntry
import proofs.«129257_j68642167325024_1_alg».proof.Proof.IdealBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer at its block and
    each output buffer at the body's store over the point's input blocks; nothing of its own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outY (iblk m c 0 t) (iblk m c 1 t) (iblk m c 2 t) (iblk m c 3 t) (iblk m c 4 t) (iblk m c 5 t) (iblk m c 6 t) (iblk m c 7 t) (iblk m c 8 t)
    | ⟨10, _⟩ => outH (iblk m c 0 t) (iblk m c 1 t) (iblk m c 2 t) (iblk m c 3 t) (iblk m c 4 t) (iblk m c 5 t) (iblk m c 6 t) (iblk m c 7 t) (iblk m c 8 t)
    | ⟨11, _⟩ => outC (iblk m c 0 t) (iblk m c 1 t) (iblk m c 2 t) (iblk m c 3 t) (iblk m c 4 t) (iblk m c 5 t) (iblk m c 6 t) (iblk m c 7 t) (iblk m c 8 t)
    | ⟨12, _⟩ => outN (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outY (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = outH (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = outC (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = outN (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the body's triple applies; what the kernel does
    not touch passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The launch theorem's obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main ends, without a fault, with every window's
    array at what the proof data assemble and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, faults nowhere, and leaves its 26 arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (dats m) (A_eq m) (run_main m ρ)

end Cert.KernelIdeal.Fr

end
-- ==== Proof.Spec.lean ====
/- The sLSTM cell, as mathematics on the extended reals.

   One step of the cell takes a row `x` of inputs and a row `h` of the previous hidden state (1024 entries each) and
   forms the row of 4096 pre-activations  `pre j = Σₖ x k · W k j  +  Σₖ h k · R k j  +  b j`, where `W` and `R` are
   the four gates' weight matrices side by side and `b` the four gates' biases end to end. Column `q` of gate number
   `g` is entry `1024·g + q` of that row: the candidate `z = tanh` (gate 0), the input gate `i = exp` (gate 1), the
   forget gate `f = σ` (gate 2) and the output gate `o = σ` (gate 3). With the previous cell state `c` and normaliser `n`
   at the same position,
     new cell state   C = f·c + i·z,        new normaliser   N = f·n + i,
     new hidden state H = o · tanh (C / (N + ε)),      projection  Y q = Σₖ H k · Wy k q + by q.
   Everything is stated row by row, so that the same functions describe a whole array of 16384 rows and a block
   of 128 of them. Nothing here needs a finite argument: the sums and products are taken as they stand. -/
import Idealize.ShloMosaic.PureOps.Ideal
import Idealize.ShloMosaic.PureOps.Ideal.Laws
import Idealize.ShloMosaic.Lib.ValueIdx

noncomputable section

namespace Cert.SLstm

open Idealize.ShloMosaic Idealize.ShloMosaic.ValueIdx

/-- The activations' shape, the side-by-side weights', one gate's weights', the end-to-end biases', one bias's. -/
abbrev Act : Shape := ⟨2, ![16384, 1024]⟩
abbrev Cat : Shape := ⟨2, ![1024, 4096]⟩
abbrev Sq : Shape := ⟨2, ![1024, 1024]⟩
abbrev Bias4 : Shape := ⟨1, ![4096]⟩
abbrev Bias1 : Shape := ⟨1, ![1024]⟩

/-- Column `q` of the gate whose columns start at `o` (0, 1024, 2048 or 3072). -/
def gateCol (o : Nat) (ho : o + 1024 ≤ 4096) (q : Fin 1024) : Fin 4096 := ⟨o + q.val, by have := q.isLt; omega⟩

/-- The small constant that keeps the normaliser away from zero: the single-precision number nearest 10⁻⁷. -/
def eps : EReal := Ideal.ofBits .f32 0x33D6BF95#32

/-- A row's pre-activations, from the row of inputs and the row of the previous hidden state. -/
def preAt (xr hr : Fin 1024 → EReal) (Wc Rc : Cat.Idx → EReal) (bc : Bias4.Idx → EReal) (j : Fin 4096) : EReal :=
  (∑ k : Fin 1024, xr k * Wc (ix2 k j)) + (∑ k : Fin 1024, hr k * Rc (ix2 k j)) + bc (ix1 j)

/-- The new cell state at column `q`, from the row's pre-activations and the old cell state there. -/
def cellAt (pre : Fin 4096 → EReal) (cv : EReal) (q : Fin 1024) : EReal :=
  Ideal.logistic (pre (gateCol 2048 (by decide) q)) * cv + Ideal.exp (pre (gateCol 1024 (by decide) q)) * Ideal.tanh (pre (gateCol 0 (by decide) q))

/-- The new normaliser at column `q`. -/
def normAt (pre : Fin 4096 → EReal) (nv : EReal) (q : Fin 1024) : EReal :=
  Ideal.logistic (pre (gateCol 2048 (by decide) q)) * nv + Ideal.exp (pre (gateCol 1024 (by decide) q))

/-- The new hidden state at column `q`. -/
def hidAt (pre : Fin 4096 → EReal) (cv nv : EReal) (q : Fin 1024) : EReal :=
  Ideal.logistic (pre (gateCol 3072 (by decide) q)) * Ideal.tanh (Ideal.div (cellAt pre cv q) (normAt pre nv q + eps))

/-- The projection at column `q`, from the row's pre-activations and the rows of old cell state and normaliser. -/
def projAt (pre : Fin 4096 → EReal) (cr nr : Fin 1024 → EReal) (Wy : Sq.Idx → EReal) (bY : Bias1.Idx → EReal) (q : Fin 1024) : EReal :=
  (∑ k : Fin 1024, hidAt pre (cr k) (nr k) k * Wy (ix2 k q)) + bY (ix1 q)

/-! ## The four results as whole arrays -/

section Whole
variable (x h c n : Act.Idx → EReal) (Wc Rc : Cat.Idx → EReal) (bc : Bias4.Idx → EReal)

/-- Row `r`'s pre-activations. -/
def rowPre (r : Fin 16384) : Fin 4096 → EReal := preAt (fun k => x (ix2 r k)) (fun k => h (ix2 r k)) Wc Rc bc

def cellArr : Act.Idx → EReal := fun i => cellAt (rowPre x h Wc Rc bc (i 0)) (c i) (i 1)
def normArr : Act.Idx → EReal := fun i => normAt (rowPre x h Wc Rc bc (i 0)) (n i) (i 1)
def hidArr : Act.Idx → EReal := fun i => hidAt (rowPre x h Wc Rc bc (i 0)) (c i) (n i) (i 1)
def projArr (Wy : Sq.Idx → EReal) (bY : Bias1.Idx → EReal) : Act.Idx → EReal := fun i =>
  projAt (rowPre x h Wc Rc bc (i 0)) (fun k => c (ix2 (i 0) k)) (fun k => n (ix2 (i 0) k)) Wy bY (i 1)

end Whole

end Cert.SLstm

end
-- ==== Proof.IdealPoint.lean ====
/- The kernel's stored blocks, entry by entry, at the ideal instance.

   At a grid point the body loads a 128-row slab of the inputs and of the previous hidden state, the two side-by-side
   weight matrices, the end-to-end biases, the slab of old cell state and normaliser, the output weights and the
   output bias, and stores four blocks. Read at row `p` and column `q` of the slab, each stored block is the
   specification's row function of row `p` of what was loaded: the matrix unit's product into a zero accumulator
   is the plain sum of products over the contracted axis, a gate is a run of 1024 columns of the pre-activation
   block, and every other operation acts entry by entry. -/
import proofs.«129257_j68642167325024_1_alg».proof.Proof.Gen.KernelIdeal.Skeleton
import proofs.«129257_j68642167325024_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pt

open Idealize.ShloMosaic Idealize.ShloMosaic.ValueIdx Cert.KernelIdeal Cert.KernelIdeal.Gen Cert.SLstm

variable (v0 v2 v24 v25 : Vec Ideal S128x1024 .f32) (v4 v7 : Vec Ideal S1024x4096 .bf16) (v11 : Vec Ideal S4096 .f32)
  (v37 : Vec Ideal S1024x1024 .bf16) (v40 : Vec Ideal S1024 .f32)

/-! ## The matrix unit's products read at an index -/

theorem lhs_gates_0 (i : S128x4096.Idx) (q : dot_S128x1024_S1024x4096_S128x4096_1_0_0_1_n_n.contr.Idx) : (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_gates_1 (i : S128x4096.Idx) (q : dot_S128x1024_S1024x4096_S128x4096_1_0_0_1_n_n.contr.Idx) : (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_gates_0 (i : S128x4096.Idx) (q : dot_S128x1024_S1024x4096_S128x4096_1_0_0_1_n_n.contr.Idx) : (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_gates_1 (i : S128x4096.Idx) (q : dot_S128x1024_S1024x4096_S128x4096_1_0_0_1_n_n.contr.Idx) : (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- The matrix unit's product into a zero accumulator, read at `(p, j)`: the sum over the 1024 contracted entries of
    row `p` of the left operand times column `j` of the right. -/
theorem matmul_gates_at (l : FVec Ideal S128x1024 .bf16) (r : FVec Ideal S1024x4096 .bf16) (p : Fin 128) (j : Fin 4096) :
    matmul dot_S128x1024_S1024x4096_S128x4096_1_0_0_1_n_n none l r (constant S128x4096 .f32 0x00000000#32) (ix2 p j) = ∑ k : Fin 1024, l (ix2 p k) * r (ix2 k j) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p j) ((ValueIdx.contrEquiv1 dot_S128x1024_S1024x4096_S128x4096_1_0_0_1_n_n 1024 rfl rfl).symm k) = ix2 p k := funext fun a => Fin.ext (by
    match a with
    | ⟨0, _⟩ => exact lhs_gates_0 _ _
    | ⟨1, _⟩ => exact (lhs_gates_1 _ _).trans hk)
  have er : dot_S128x1024_S1024x4096_S128x4096_1_0_0_1_n_n.rhsIdx (ix2 p j) ((ValueIdx.contrEquiv1 dot_S128x1024_S1024x4096_S128x4096_1_0_0_1_n_n 1024 rfl rfl).symm k) = ix2 k j := funext fun a => Fin.ext (by
    match a with
    | ⟨0, _⟩ => exact (rhs_gates_0 _ _).trans hk
    | ⟨1, _⟩ => exact rhs_gates_1 _ _)
  rw [el, er]

theorem lhs_out_0 (i : S128x1024.Idx) (q : dot_S128x1024_S1024x1024_S128x1024_1_0_0_1_n_n.contr.Idx) : (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_out_1 (i : S128x1024.Idx) (q : dot_S128x1024_S1024x1024_S128x1024_1_0_0_1_n_n.contr.Idx) : (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_out_0 (i : S128x1024.Idx) (q : dot_S128x1024_S1024x1024_S128x1024_1_0_0_1_n_n.contr.Idx) : (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_out_1 (i : S128x1024.Idx) (q : dot_S128x1024_S1024x1024_S128x1024_1_0_0_1_n_n.contr.Idx) : (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The matrix unit's product into a zero accumulator, read at `(p, j)`: the sum over the 1024 contracted entries of
    row `p` of the left operand times column `j` of the right. -/
theorem matmul_out_at (l : FVec Ideal S128x1024 .bf16) (r : FVec Ideal S1024x1024 .bf16) (p : Fin 128) (j : Fin 1024) :
    matmul dot_S128x1024_S1024x1024_S128x1024_1_0_0_1_n_n none l r (constant S128x1024 .f32 0x00000000#32) (ix2 p j) = ∑ k : Fin 1024, l (ix2 p k) * r (ix2 k j) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p j) ((ValueIdx.contrEquiv1 dot_S128x1024_S1024x1024_S128x1024_1_0_0_1_n_n 1024 rfl rfl).symm k) = ix2 p k := funext fun a => Fin.ext (by
    match a with
    | ⟨0, _⟩ => exact lhs_out_0 _ _
    | ⟨1, _⟩ => exact (lhs_out_1 _ _).trans hk)
  have er : dot_S128x1024_S1024x1024_S128x1024_1_0_0_1_n_n.rhsIdx (ix2 p j) ((ValueIdx.contrEquiv1 dot_S128x1024_S1024x1024_S128x1024_1_0_0_1_n_n 1024 rfl rfl).symm k) = ix2 k j := funext fun a => Fin.ext (by
    match a with
    | ⟨0, _⟩ => exact (rhs_out_0 _ _).trans hk
    | ⟨1, _⟩ => exact rhs_out_1 _ _)
  rw [el, er]

/-! ## The bias row spread over the block's rows -/

/-- A vector of 4096 entries, given a leading unit axis and repeated over 128 rows, read at `(p, j)` is its entry `j`. -/
theorem bias4_at (b : FVec Ideal S4096 .f32) (p : Fin 128) (j : Fin 4096) :
    broadcastTo S128x4096 (shapeCast S1x4096 (shapeCast S4096 b shapeCasts_S4096_S4096) shapeCasts_S4096_S1x4096) broadcasts_S1x4096_S128x4096 (ix2 p j) = b (ix1 j) := by
  rw [broadcastTo_1b_ab_apply, shapeCast_a_1a_apply, shapeCast_self]

/-- The same for 1024 entries. -/
theorem bias1_at (b : FVec Ideal S1024 .f32) (p : Fin 128) (q : Fin 1024) :
    broadcastTo S128x1024 (shapeCast S1x1024 b shapeCasts_S1024_S1x1024) broadcasts_S1x1024_S128x1024 (ix2 p q) = b (ix1 q) := by
  rw [broadcastTo_1b_ab_apply, shapeCast_a_1a_apply]

/-! ## The stored blocks, entry by entry -/

/-- The pre-activation block at row `p`, column `j`: the two products' sums over the 1024 contracted entries and the
    bias (narrowing a value's format changes nothing here, and a cast to the same shape is the identity). -/
theorem pre_at (p : Fin 128) (j : Fin 4096) :
    k0_pay2 (F := Ideal) v0 v2 v4 v7 v11 (ix2 p j) = preAt (fun k => v0 (ix2 p k)) (fun k => v2 (ix2 p k)) v4 v7 v11 j := by
  unfold k0_pay2 preAt
  dsimp only
  rw [addf_apply, addf_apply, matmul_gates_at, matmul_gates_at, bias4_at, shapeCast_self, shapeCast_self]
  rfl

/-- Gate `o`'s columns cut out of the pre-activation block: entry `(p, q)` is the block's entry `(p, o + q)`. -/
theorem gate_at (o : Nat) (ho : o + 1024 ≤ 4096) (h : S128x4096.Slices ![0, o] S128x1024) (p : Fin 128) (q : Fin 1024) :
    extractStridedSlice S128x1024 ![0, o] (k0_pay2 (F := Ideal) v0 v2 v4 v7 v11) h (ix2 p q) = preAt (fun k => v0 (ix2 p k)) (fun k => v2 (ix2 p k)) v4 v7 v11 (gateCol o ho q) := by
  rw [slice2_axis1_apply o _ h p q (gateCol o ho q) rfl, pre_at]

/-- The input gate's block: the exponential of gate 1. -/
theorem igate_at (p : Fin 128) (q : Fin 1024) :
    k0_pay3 (F := Ideal) v0 v2 v4 v7 v11 (ix2 p q) = Ideal.exp (preAt (fun k => v0 (ix2 p k)) (fun k => v2 (ix2 p k)) v4 v7 v11 (gateCol 1024 (by decide) q)) := by
  unfold k0_pay3
  try dsimp only
  show Ideal.exp (extractStridedSlice S128x1024 ![0, 1024] (k0_pay2 (F := Ideal) v0 v2 v4 v7 v11) slices_S128x4096_o0_1024_S128x1024 (ix2 p q)) = _
  rw [gate_at]

/-- The forget gate's block: the logistic function of gate 2. -/
theorem fgate_at (p : Fin 128) (q : Fin 1024) :
    k0_pay4 (F := Ideal) v0 v2 v4 v7 v11 (ix2 p q) = Ideal.logistic (preAt (fun k => v0 (ix2 p k)) (fun k => v2 (ix2 p k)) v4 v7 v11 (gateCol 2048 (by decide) q)) := by
  unfold k0_pay4
  try dsimp only
  show Ideal.logistic (extractStridedSlice S128x1024 ![0, 2048] (k0_pay2 (F := Ideal) v0 v2 v4 v7 v11) slices_S128x4096_o0_2048_S128x1024 (ix2 p q)) = _
  rw [gate_at]

/-- The stored cell-state block at `(p, q)`. -/
theorem cell_at (p : Fin 128) (q : Fin 1024) :
    k0_pay5 (F := Ideal) v0 v2 v4 v7 v11 v24 (ix2 p q)
      = cellAt (preAt (fun k => v0 (ix2 p k)) (fun k => v2 (ix2 p k)) v4 v7 v11) (v24 (ix2 p q)) q := by
  unfold k0_pay5 cellAt
  try dsimp only
  rw [addf_apply, mulf_apply, mulf_apply, fgate_at, igate_at]
  show _ * _ + _ * Ideal.tanh (extractStridedSlice S128x1024 ![0, 0] (k0_pay2 (F := Ideal) v0 v2 v4 v7 v11) slices_S128x4096_o0_0_S128x1024 (ix2 p q)) = _
  rw [gate_at]

/-- The stored normaliser block at `(p, q)`. -/
theorem norm_at (p : Fin 128) (q : Fin 1024) :
    k0_pay6 (F := Ideal) v0 v2 v4 v7 v11 v25 (ix2 p q)
      = normAt (preAt (fun k => v0 (ix2 p k)) (fun k => v2 (ix2 p k)) v4 v7 v11) (v25 (ix2 p q)) q := by
  unfold k0_pay6 normAt
  try dsimp only
  rw [addf_apply, mulf_apply, fgate_at, igate_at]

/-- The stored hidden-state block at `(p, q)`. -/
theorem hid_at (p : Fin 128) (q : Fin 1024) :
    k0_pay7 (F := Ideal) v0 v2 v4 v7 v11 v24 v25 (ix2 p q)
      = hidAt (preAt (fun k => v0 (ix2 p k)) (fun k => v2 (ix2 p k)) v4 v7 v11) (v24 (ix2 p q)) (v25 (ix2 p q)) q := by
  unfold k0_pay7 hidAt eps
  try dsimp only
  rw [mulf_apply]
  show Ideal.logistic (extractStridedSlice S128x1024 ![0, 3072] (k0_pay2 (F := Ideal) v0 v2 v4 v7 v11) slices_S128x4096_o0_3072_S128x1024 (ix2 p q))
      * Ideal.tanh (Ideal.div (k0_pay5 (F := Ideal) v0 v2 v4 v7 v11 v24 (ix2 p q)) (k0_pay6 (F := Ideal) v0 v2 v4 v7 v11 v25 (ix2 p q) + Ideal.ofBits .f32 0x33D6BF95#32)) = _
  rw [gate_at, cell_at, norm_at]

/-- The stored projection block at `(p, q)`. -/
theorem proj_at (p : Fin 128) (q : Fin 1024) :
    k0_pay1 (F := Ideal) (k0_pay8 (F := Ideal) v0 v2 v4 v7 v11 v24 v25 v37) v40 (ix2 p q)
      = projAt (preAt (fun k => v0 (ix2 p k)) (fun k => v2 (ix2 p k)) v4 v7 v11) (fun k => v24 (ix2 p k)) (fun k => v25 (ix2 p k)) v37 v40 q := by
  unfold k0_pay1 k0_pay8 projAt
  dsimp only
  rw [addf_apply, matmul_out_at, bias1_at, shapeCast_self]
  refine congrArg (· + v40 (ix1 q)) (Finset.sum_congr rfl fun k _ => ?_)
  show k0_pay7 (F := Ideal) v0 v2 v4 v7 v11 v24 v25 (ix2 p k) * _ = _
  rw [hid_at]

end Cert.KernelIdeal.Pt

end
-- ==== Proof.IdealValue.lean ====
/- The kernel's four output arrays after its run, at the ideal instance.

   Point `t` of the grid works on rows `128·t … 128·t + 127`: it fetches that slab of the inputs, of the previous hidden
   state, of the old cell state and of the old normaliser, finds the resident operands whole, and writes four slabs
   back. By the entry-by-entry reading of the body's stores, the slab written back into each output array is that
   slab of the specification's array of the arrays the region found. Row `r` lies in the slab of point `r / 128`,
   so the 128 slabs cover each output array, and each array ends as the specification's. -/
import proofs.«129257_j68642167325024_1_alg».proof.Proof.IdealRun
import proofs.«129257_j68642167325024_1_alg».proof.Proof.IdealPoint
import proofs.«129257_j68642167325024_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.SLstm

variable (m : (ℓ : Loc nD τ sig) → Buf (Elt Ideal) ℓ) (ρ : Dev nD → PrngReg)

/-! ## Where each window's block sits -/

theorem hz2 : (![0, 0] : Fin 2 → Nat) = fun _ => 0 := funext fun a => by fin_cases a <;> rfl
theorem hz1 : (![0] : Fin 1 → Nat) = fun _ => 0 := funext fun a => by fin_cases a <;> rfl

theorem hN : cfg0.N = 128 := N_0

/-- Window 0's block at point `t` is the `t`-th slab of 128 rows, all columns. -/
theorem slab0 : ∀ t : Fin cfg0.N, win0_0.index t (0 : Fin 2) = t.val ∧ win0_0.index t (1 : Fin 2) = 0 :=
  (by decide +kernel : ∀ t : Fin grid0.N, _)
/-- Window 1's block at point `t` is the `t`-th slab of 128 rows, all columns. -/
theorem slab1 : ∀ t : Fin cfg0.N, win0_1.index t (0 : Fin 2) = t.val ∧ win0_1.index t (1 : Fin 2) = 0 :=
  (by decide +kernel : ∀ t : Fin grid0.N, _)
/-- Window 2's block at point `t` is the `t`-th slab of 128 rows, all columns. -/
theorem slab2 : ∀ t : Fin cfg0.N, win0_2.index t (0 : Fin 2) = t.val ∧ win0_2.index t (1 : Fin 2) = 0 :=
  (by decide +kernel : ∀ t : Fin grid0.N, _)
/-- Window 3's block at point `t` is the `t`-th slab of 128 rows, all columns. -/
theorem slab3 : ∀ t : Fin cfg0.N, win0_3.index t (0 : Fin 2) = t.val ∧ win0_3.index t (1 : Fin 2) = 0 :=
  (by decide +kernel : ∀ t : Fin grid0.N, _)
/-- Window 9's block at point `t` is the `t`-th slab of 128 rows, all columns. -/
theorem slab9 : ∀ t : Fin cfg0.N, win0_9.index t (0 : Fin 2) = t.val ∧ win0_9.index t (1 : Fin 2) = 0 :=
  (by decide +kernel : ∀ t : Fin grid0.N, _)
/-- Window 10's block at point `t` is the `t`-th slab of 128 rows, all columns. -/
theorem slab10 : ∀ t : Fin cfg0.N, win0_10.index t (0 : Fin 2) = t.val ∧ win0_10.index t (1 : Fin 2) = 0 :=
  (by decide +kernel : ∀ t : Fin grid0.N, _)
/-- Window 11's block at point `t` is the `t`-th slab of 128 rows, all columns. -/
theorem slab11 : ∀ t : Fin cfg0.N, win0_11.index t (0 : Fin 2) = t.val ∧ win0_11.index t (1 : Fin 2) = 0 :=
  (by decide +kernel : ∀ t : Fin grid0.N, _)
/-- Window 12's block at point `t` is the `t`-th slab of 128 rows, all columns. -/
theorem slab12 : ∀ t : Fin cfg0.N, win0_12.index t (0 : Fin 2) = t.val ∧ win0_12.index t (1 : Fin 2) = 0 :=
  (by decide +kernel : ∀ t : Fin grid0.N, _)
/-- Window 4's block is its whole array at every point. -/
theorem whole4 : ∀ t : Fin cfg0.N, win0_4.index t (0 : Fin 2) = 0 ∧ win0_4.index t (1 : Fin 2) = 0 :=
  (by decide +kernel : ∀ t : Fin grid0.N, _)
/-- Window 5's block is its whole array at every point. -/
theorem whole5 : ∀ t : Fin cfg0.N, win0_5.index t (0 : Fin 2) = 0 ∧ win0_5.index t (1 : Fin 2) = 0 :=
  (by decide +kernel : ∀ t : Fin grid0.N, _)
/-- Window 6's block is its whole array at every point. -/
theorem whole6 : ∀ t : Fin cfg0.N, win0_6.index t (0 : Fin 1) = 0 :=
  (by decide +kernel : ∀ t : Fin grid0.N, _)
/-- Window 7's block is its whole array at every point. -/
theorem whole7 : ∀ t : Fin cfg0.N, win0_7.index t (0 : Fin 2) = 0 ∧ win0_7.index t (1 : Fin 2) = 0 :=
  (by decide +kernel : ∀ t : Fin grid0.N, _)
/-- Window 8's block is its whole array at every point. -/
theorem whole8 : ∀ t : Fin cfg0.N, win0_8.index t (0 : Fin 1) = 0 :=
  (by decide +kernel : ∀ t : Fin grid0.N, _)

/-- Row `p` of point `t`'s slab is row `128·t + p` of the array. -/
def rowOf (t : Fin cfg0.N) (p : Fin 128) : Fin 16384 := ⟨t.val * 128 + p.val, by have h : t.val < 128 := lt_of_lt_of_eq t.isLt hN; have := p.isLt; omega⟩

theorem emb0 (t : Fin cfg0.N) (p : Fin 128) (k : Fin 1024) :
    ((cfg0.win 0).blk t).view.emb (ix2 p k) = (ix2 (rowOf t p) k : S16384x1024.Idx) := by
  obtain ⟨e0, e1⟩ := slab0 t
  funext a; apply Fin.ext
  match a with
  | ⟨0, _⟩ => show win0_0.index t (0 : Fin 2) * 128 + 1 * p.val = t.val * 128 + p.val; rw [e0]; omega
  | ⟨1, _⟩ => show win0_0.index t (1 : Fin 2) * 1024 + 1 * k.val = k.val; rw [e1]; omega
theorem emb1 (t : Fin cfg0.N) (p : Fin 128) (k : Fin 1024) :
    ((cfg0.win 1).blk t).view.emb (ix2 p k) = (ix2 (rowOf t p) k : S16384x1024.Idx) := by
  obtain ⟨e0, e1⟩ := slab1 t
  funext a; apply Fin.ext
  match a with
  | ⟨0, _⟩ => show win0_1.index t (0 : Fin 2) * 128 + 1 * p.val = t.val * 128 + p.val; rw [e0]; omega
  | ⟨1, _⟩ => show win0_1.index t (1 : Fin 2) * 1024 + 1 * k.val = k.val; rw [e1]; omega
theorem emb2 (t : Fin cfg0.N) (p : Fin 128) (k : Fin 1024) :
    ((cfg0.win 2).blk t).view.emb (ix2 p k) = (ix2 (rowOf t p) k : S16384x1024.Idx) := by
  obtain ⟨e0, e1⟩ := slab2 t
  funext a; apply Fin.ext
  match a with
  | ⟨0, _⟩ => show win0_2.index t (0 : Fin 2) * 128 + 1 * p.val = t.val * 128 + p.val; rw [e0]; omega
  | ⟨1, _⟩ => show win0_2.index t (1 : Fin 2) * 1024 + 1 * k.val = k.val; rw [e1]; omega
theorem emb3 (t : Fin cfg0.N) (p : Fin 128) (k : Fin 1024) :
    ((cfg0.win 3).blk t).view.emb (ix2 p k) = (ix2 (rowOf t p) k : S16384x1024.Idx) := by
  obtain ⟨e0, e1⟩ := slab3 t
  funext a; apply Fin.ext
  match a with
  | ⟨0, _⟩ => show win0_3.index t (0 : Fin 2) * 128 + 1 * p.val = t.val * 128 + p.val; rw [e0]; omega
  | ⟨1, _⟩ => show win0_3.index t (1 : Fin 2) * 1024 + 1 * k.val = k.val; rw [e1]; omega
theorem emb9 (t : Fin cfg0.N) (p : Fin 128) (k : Fin 1024) :
    ((cfg0.win 9).blk t).view.emb (ix2 p k) = (ix2 (rowOf t p) k : S16384x1024.Idx) := by
  obtain ⟨e0, e1⟩ := slab9 t
  funext a; apply Fin.ext
  match a with
  | ⟨0, _⟩ => show win0_9.index t (0 : Fin 2) * 128 + 1 * p.val = t.val * 128 + p.val; rw [e0]; omega
  | ⟨1, _⟩ => show win0_9.index t (1 : Fin 2) * 1024 + 1 * k.val = k.val; rw [e1]; omega
theorem emb10 (t : Fin cfg0.N) (p : Fin 128) (k : Fin 1024) :
    ((cfg0.win 10).blk t).view.emb (ix2 p k) = (ix2 (rowOf t p) k : S16384x1024.Idx) := by
  obtain ⟨e0, e1⟩ := slab10 t
  funext a; apply Fin.ext
  match a with
  | ⟨0, _⟩ => show win0_10.index t (0 : Fin 2) * 128 + 1 * p.val = t.val * 128 + p.val; rw [e0]; omega
  | ⟨1, _⟩ => show win0_10.index t (1 : Fin 2) * 1024 + 1 * k.val = k.val; rw [e1]; omega
theorem emb11 (t : Fin cfg0.N) (p : Fin 128) (k : Fin 1024) :
    ((cfg0.win 11).blk t).view.emb (ix2 p k) = (ix2 (rowOf t p) k : S16384x1024.Idx) := by
  obtain ⟨e0, e1⟩ := slab11 t
  funext a; apply Fin.ext
  match a with
  | ⟨0, _⟩ => show win0_11.index t (0 : Fin 2) * 128 + 1 * p.val = t.val * 128 + p.val; rw [e0]; omega
  | ⟨1, _⟩ => show win0_11.index t (1 : Fin 2) * 1024 + 1 * k.val = k.val; rw [e1]; omega
theorem emb12 (t : Fin cfg0.N) (p : Fin 128) (k : Fin 1024) :
    ((cfg0.win 12).blk t).view.emb (ix2 p k) = (ix2 (rowOf t p) k : S16384x1024.Idx) := by
  obtain ⟨e0, e1⟩ := slab12 t
  funext a; apply Fin.ext
  match a with
  | ⟨0, _⟩ => show win0_12.index t (0 : Fin 2) * 128 + 1 * p.val = t.val * 128 + p.val; rw [e0]; omega
  | ⟨1, _⟩ => show win0_12.index t (1 : Fin 2) * 1024 + 1 * k.val = k.val; rw [e1]; omega

/-- Input window 0's block read at `(p, k)` is the array's entry at row `128·t + p`, column `k`. -/
theorem blk0 (c : Dev nD) (t : Fin cfg0.N) (p : Fin 128) (k : Fin 1024) :
    iblk m c 0 t (ix2 p k) = V m c main_arg0 (ix2 (rowOf t p) k) := by
  show V m c main_arg0 (((cfg0.win 0).blk t).view.emb (ix2 p k)) = _
  rw [emb0]
/-- Input window 1's block read at `(p, k)` is the array's entry at row `128·t + p`, column `k`. -/
theorem blk1 (c : Dev nD) (t : Fin cfg0.N) (p : Fin 128) (k : Fin 1024) :
    iblk m c 1 t (ix2 p k) = V m c main_arg1 (ix2 (rowOf t p) k) := by
  show V m c main_arg1 (((cfg0.win 1).blk t).view.emb (ix2 p k)) = _
  rw [emb1]
/-- Input window 2's block read at `(p, k)` is the array's entry at row `128·t + p`, column `k`. -/
theorem blk2 (c : Dev nD) (t : Fin cfg0.N) (p : Fin 128) (k : Fin 1024) :
    iblk m c 2 t (ix2 p k) = V m c main_arg2 (ix2 (rowOf t p) k) := by
  show V m c main_arg2 (((cfg0.win 2).blk t).view.emb (ix2 p k)) = _
  rw [emb2]
/-- Input window 3's block read at `(p, k)` is the array's entry at row `128·t + p`, column `k`. -/
theorem blk3 (c : Dev nD) (t : Fin cfg0.N) (p : Fin 128) (k : Fin 1024) :
    iblk m c 3 t (ix2 p k) = V m c main_arg3 (ix2 (rowOf t p) k) := by
  show V m c main_arg3 (((cfg0.win 3).blk t).view.emb (ix2 p k)) = _
  rw [emb3]

/-- Input window 4's block is its array. -/
theorem blk4 (c : Dev nD) (t : Fin cfg0.N) : (iblk m c 4 t : Vec Ideal S1024x4096 .bf16) = V m c main_v11 := by
  funext y
  show V m c main_v11 (((cfg0.win 4).blk t).view.emb y) = V m c main_v11 y
  refine congrArg (V m c main_v11) (funext fun a => Fin.ext ?_)
  obtain ⟨e0, e1⟩ := whole4 t
  match a with
  | ⟨0, _⟩ => show win0_4.index t (0 : Fin 2) * 1024 + 1 * (y 0).val = (y 0).val; rw [e0]; omega
  | ⟨1, _⟩ => show win0_4.index t (1 : Fin 2) * 4096 + 1 * (y 1).val = (y 1).val; rw [e1]; omega
/-- Input window 5's block is its array. -/
theorem blk5 (c : Dev nD) (t : Fin cfg0.N) : (iblk m c 5 t : Vec Ideal S1024x4096 .bf16) = V m c main_v12 := by
  funext y
  show V m c main_v12 (((cfg0.win 5).blk t).view.emb y) = V m c main_v12 y
  refine congrArg (V m c main_v12) (funext fun a => Fin.ext ?_)
  obtain ⟨e0, e1⟩ := whole5 t
  match a with
  | ⟨0, _⟩ => show win0_5.index t (0 : Fin 2) * 1024 + 1 * (y 0).val = (y 0).val; rw [e0]; omega
  | ⟨1, _⟩ => show win0_5.index t (1 : Fin 2) * 4096 + 1 * (y 1).val = (y 1).val; rw [e1]; omega
/-- Input window 6's block is its array. -/
theorem blk6 (c : Dev nD) (t : Fin cfg0.N) : (iblk m c 6 t : Vec Ideal S4096 .f32) = V m c main_v10 := by
  funext y
  show V m c main_v10 (((cfg0.win 6).blk t).view.emb y) = V m c main_v10 y
  refine congrArg (V m c main_v10) (funext fun a => Fin.ext ?_)
  have e0 := whole6 t
  match a with
  | ⟨0, _⟩ => show win0_6.index t (0 : Fin 1) * 4096 + 1 * (y 0).val = (y 0).val; rw [e0]; omega
/-- Input window 7's block is its array. -/
theorem blk7 (c : Dev nD) (t : Fin cfg0.N) : (iblk m c 7 t : Vec Ideal S1024x1024 .bf16) = V m c main_v13 := by
  funext y
  show V m c main_v13 (((cfg0.win 7).blk t).view.emb y) = V m c main_v13 y
  refine congrArg (V m c main_v13) (funext fun a => Fin.ext ?_)
  obtain ⟨e0, e1⟩ := whole7 t
  match a with
  | ⟨0, _⟩ => show win0_7.index t (0 : Fin 2) * 1024 + 1 * (y 0).val = (y 0).val; rw [e0]; omega
  | ⟨1, _⟩ => show win0_7.index t (1 : Fin 2) * 1024 + 1 * (y 1).val = (y 1).val; rw [e1]; omega
/-- Input window 8's block is its array. -/
theorem blk8 (c : Dev nD) (t : Fin cfg0.N) : (iblk m c 8 t : Vec Ideal S1024 .f32) = V m c main_arg25 := by
  funext y
  show V m c main_arg25 (((cfg0.win 8).blk t).view.emb y) = V m c main_arg25 y
  refine congrArg (V m c main_arg25) (funext fun a => Fin.ext ?_)
  have e0 := whole8 t
  match a with
  | ⟨0, _⟩ => show win0_8.index t (0 : Fin 1) * 1024 + 1 * (y 0).val = (y 0).val; rw [e0]; omega

/-! ## What each point writes back -/

/-- What point `t` writes back into the projection array is block `t` of the specification's projection array: the body's
    store, read entry by entry, with each loaded block replaced by the slab (or the whole array) it was fetched from. -/
theorem flushedY (c : Dev nD) (t : Fin cfg0.N) :
    (dats m 0 c).flushed 9 t = ((cfg0.win 9).blk t).view.read (Elt Ideal) (projArr (V m c main_arg0) (V m c main_arg1) (V m c main_arg2) (V m c main_arg3) (V m c main_v11) (V m c main_v12) (V m c main_v10) (V m c main_v13) (V m c main_arg25)) := by
  show (cfg0.win 9).cut (grid0.coords t) ((dats m 0 c).after 9 t) = _
  rw [after0_9]
  unfold outY
  rw [View.canon_unit_zero hz2]
  simp only [View.ld_unit_zero (S := S128x1024) hz2, View.ld_unit_zero (S := S1024x4096) hz2, View.ld_unit_zero (S := S4096) hz1, View.ld_unit_zero (S := S1024x1024) hz2, View.ld_unit_zero (S := S1024) hz1]
  funext j
  obtain ⟨p, q, rfl⟩ : ∃ (p : Fin 128) (q : Fin 1024), j = ix2 p q := ⟨j 0, j 1, eq_ix2 j⟩
  show k0_pay1 (F := Ideal) (k0_pay8 (F := Ideal) (iblk m c 0 t) (iblk m c 1 t) (iblk m c 4 t) (iblk m c 5 t) (iblk m c 6 t) (iblk m c 2 t) (iblk m c 3 t) (iblk m c 7 t)) (iblk m c 8 t) (ix2 p q)
    = projArr (V m c main_arg0) (V m c main_arg1) (V m c main_arg2) (V m c main_arg3) (V m c main_v11) (V m c main_v12) (V m c main_v10) (V m c main_v13) (V m c main_arg25) (((cfg0.win 9).blk t).view.emb (ix2 p q))
  rw [emb9]
  refine (Pt.proj_at (v0 := iblk m c 0 t) (v2 := iblk m c 1 t) (v24 := iblk m c 2 t) (v25 := iblk m c 3 t) (v4 := iblk m c 4 t) (v7 := iblk m c 5 t) (v11 := iblk m c 6 t) (v37 := iblk m c 7 t) (v40 := iblk m c 8 t) p q).trans ?_
  unfold projArr rowPre
  simp only [blk0, blk1, blk2, blk3, blk4, blk5, blk6, blk7, blk8]

/-- What point `t` writes back into the hidden-state array is block `t` of the specification's hidden-state array: the body's
    store, read entry by entry, with each loaded block replaced by the slab (or the whole array) it was fetched from. -/
theorem flushedH (c : Dev nD) (t : Fin cfg0.N) :
    (dats m 0 c).flushed 10 t = ((cfg0.win 10).blk t).view.read (Elt Ideal) (hidArr (V m c main_arg0) (V m c main_arg1) (V m c main_arg2) (V m c main_arg3) (V m c main_v11) (V m c main_v12) (V m c main_v10)) := by
  show (cfg0.win 10).cut (grid0.coords t) ((dats m 0 c).after 10 t) = _
  rw [after0_10]
  unfold outH
  rw [View.canon_unit_zero hz2]
  simp only [View.ld_unit_zero (S := S128x1024) hz2, View.ld_unit_zero (S := S1024x4096) hz2, View.ld_unit_zero (S := S4096) hz1, View.ld_unit_zero (S := S1024x1024) hz2, View.ld_unit_zero (S := S1024) hz1]
  funext j
  obtain ⟨p, q, rfl⟩ : ∃ (p : Fin 128) (q : Fin 1024), j = ix2 p q := ⟨j 0, j 1, eq_ix2 j⟩
  show k0_pay7 (F := Ideal) (iblk m c 0 t) (iblk m c 1 t) (iblk m c 4 t) (iblk m c 5 t) (iblk m c 6 t) (iblk m c 2 t) (iblk m c 3 t) (ix2 p q)
    = hidArr (V m c main_arg0) (V m c main_arg1) (V m c main_arg2) (V m c main_arg3) (V m c main_v11) (V m c main_v12) (V m c main_v10) (((cfg0.win 10).blk t).view.emb (ix2 p q))
  rw [emb10]
  refine (Pt.hid_at (v0 := iblk m c 0 t) (v2 := iblk m c 1 t) (v24 := iblk m c 2 t) (v25 := iblk m c 3 t) (v4 := iblk m c 4 t) (v7 := iblk m c 5 t) (v11 := iblk m c 6 t) p q).trans ?_
  unfold hidArr rowPre
  simp only [blk0, blk1, blk2, blk3, blk4, blk5, blk6]

/-- What point `t` writes back into the cell-state array is block `t` of the specification's cell-state array: the body's
    store, read entry by entry, with each loaded block replaced by the slab (or the whole array) it was fetched from. -/
theorem flushedC (c : Dev nD) (t : Fin cfg0.N) :
    (dats m 0 c).flushed 11 t = ((cfg0.win 11).blk t).view.read (Elt Ideal) (cellArr (V m c main_arg0) (V m c main_arg1) (V m c main_arg2) (V m c main_v11) (V m c main_v12) (V m c main_v10)) := by
  show (cfg0.win 11).cut (grid0.coords t) ((dats m 0 c).after 11 t) = _
  rw [after0_11]
  unfold outC
  rw [View.canon_unit_zero hz2]
  simp only [View.ld_unit_zero (S := S128x1024) hz2, View.ld_unit_zero (S := S1024x4096) hz2, View.ld_unit_zero (S := S4096) hz1, View.ld_unit_zero (S := S1024x1024) hz2, View.ld_unit_zero (S := S1024) hz1]
  funext j
  obtain ⟨p, q, rfl⟩ : ∃ (p : Fin 128) (q : Fin 1024), j = ix2 p q := ⟨j 0, j 1, eq_ix2 j⟩
  show k0_pay5 (F := Ideal) (iblk m c 0 t) (iblk m c 1 t) (iblk m c 4 t) (iblk m c 5 t) (iblk m c 6 t) (iblk m c 2 t) (ix2 p q)
    = cellArr (V m c main_arg0) (V m c main_arg1) (V m c main_arg2) (V m c main_v11) (V m c main_v12) (V m c main_v10) (((cfg0.win 11).blk t).view.emb (ix2 p q))
  rw [emb11]
  refine (Pt.cell_at (v0 := iblk m c 0 t) (v2 := iblk m c 1 t) (v24 := iblk m c 2 t) (v4 := iblk m c 4 t) (v7 := iblk m c 5 t) (v11 := iblk m c 6 t) p q).trans ?_
  unfold cellArr rowPre
  simp only [blk0, blk1, blk2, blk4, blk5, blk6]

/-- What point `t` writes back into the normaliser array is block `t` of the specification's normaliser array: the body's
    store, read entry by entry, with each loaded block replaced by the slab (or the whole array) it was fetched from. -/
theorem flushedN (c : Dev nD) (t : Fin cfg0.N) :
    (dats m 0 c).flushed 12 t = ((cfg0.win 12).blk t).view.read (Elt Ideal) (normArr (V m c main_arg0) (V m c main_arg1) (V m c main_arg3) (V m c main_v11) (V m c main_v12) (V m c main_v10)) := by
  show (cfg0.win 12).cut (grid0.coords t) ((dats m 0 c).after 12 t) = _
  rw [after0_12]
  unfold outN
  rw [View.canon_unit_zero hz2]
  simp only [View.ld_unit_zero (S := S128x1024) hz2, View.ld_unit_zero (S := S1024x4096) hz2, View.ld_unit_zero (S := S4096) hz1, View.ld_unit_zero (S := S1024x1024) hz2, View.ld_unit_zero (S := S1024) hz1]
  funext j
  obtain ⟨p, q, rfl⟩ : ∃ (p : Fin 128) (q : Fin 1024), j = ix2 p q := ⟨j 0, j 1, eq_ix2 j⟩
  show k0_pay6 (F := Ideal) (iblk m c 0 t) (iblk m c 1 t) (iblk m c 4 t) (iblk m c 5 t) (iblk m c 6 t) (iblk m c 3 t) (ix2 p q)
    = normArr (V m c main_arg0) (V m c main_arg1) (V m c main_arg3) (V m c main_v11) (V m c main_v12) (V m c main_v10) (((cfg0.win 12).blk t).view.emb (ix2 p q))
  rw [emb12]
  refine (Pt.norm_at (v0 := iblk m c 0 t) (v2 := iblk m c 1 t) (v25 := iblk m c 3 t) (v4 := iblk m c 4 t) (v7 := iblk m c 5 t) (v11 := iblk m c 6 t) p q).trans ?_
  unfold normArr rowPre
  simp only [blk0, blk1, blk3, blk4, blk5, blk6]

/-! ## The written-back blocks cover the arrays -/

/-- An index of the projection array is in point `t`'s block iff each coordinate is in the block's range on its axis. -/
theorem mem_blkY (t : Fin cfg0.N) (i : S16384x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v14_0).slice (win0_9.rect t)).set ↔ _
  rw [View.set_slice_whole, Rect.mem_set_unit]
  exact Iff.rfl

/-- Row `r` of the projection array lies in the slab of point `r / 128`, which is written back. -/
theorem coverY (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  have ht : (i 0).val / 128 < cfg0.N := lt_of_lt_of_eq (by omega) hN.symm
  obtain ⟨e0, e1⟩ := slab9 ⟨(i 0).val / 128, ht⟩
  refine ⟨⟨(i 0).val / 128, ht⟩, flush0_9 _, ?_⟩
  rw [mem_blkY]
  intro a
  match a with
  | ⟨0, _⟩ =>
    show win0_9.index ⟨(i 0).val / 128, ht⟩ (0 : Fin 2) * 128 ≤ (i 0).val ∧ (i 0).val < win0_9.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_9.index ⟨(i 0).val / 128, ht⟩ (1 : Fin 2) * 1024 ≤ (i 1).val ∧ (i 1).val < win0_9.index ⟨(i 0).val / 128, ht⟩ (1 : Fin 2) * 1024 + 1024
    rw [e1]; omega

/-- The projection array after the run is the specification's. -/
theorem finalY (c : Dev nD) : (dats m 0 c).arrAt 9 cfg0.N = projArr (V m c main_arg0) (V m c main_arg1) (V m c main_arg2) (V m c main_arg3) (V m c main_v11) (V m c main_v12) (V m c main_v10) (V m c main_v13) (V m c main_arg25) :=
  (dats m 0 c).arrAt_eq_of_cover 9 _ (fun t _ => flushedY m c t) coverY

/-- An index of the hidden-state array is in point `t`'s block iff each coordinate is in the block's range on its axis. -/
theorem mem_blkH (t : Fin cfg0.N) (i : S16384x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v14_1).slice (win0_10.rect t)).set ↔ _
  rw [View.set_slice_whole, Rect.mem_set_unit]
  exact Iff.rfl

/-- Row `r` of the hidden-state array lies in the slab of point `r / 128`, which is written back. -/
theorem coverH (i : S16384x1024.Idx) :
    ∃ t : Fin cfg0.N, (cfg0.win 10).flush t = true ∧ i ∈ ((cfg0.win 10).blk t).view.set := by
  have hi0 : (i 0).val < 16384 := (i 0).isLt
  have hi1 : (i 1).val < 1024 := (i 1).isLt
  have ht : (i 0).val / 128 < cfg0.N := lt_of_lt_of_eq (by omega) hN.symm
  obtain ⟨e0, e1⟩ := slab10 ⟨(i 0).val / 128, ht⟩
  refine ⟨⟨(i 0).val / 128, ht⟩, flush0_10 _, ?_⟩
  rw [mem_blkH]
  intro a
  match a with
  | ⟨0, _⟩ =>
    show win0_10.index ⟨(i 0).val / 128, ht⟩ (0 : Fin 2) * 128 ≤ (i 0).val ∧ (i 0).val < win0_10.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_10.index ⟨(i 0).val / 128, ht⟩ (1 : Fin 2) * 1024 ≤ (i 1).val ∧ (i 1).val < win0_10.index ⟨(i 0).val / 128, ht⟩ (1 : Fin 2) * 1024 + 1024
    rw [e1]; omega

/-- The hidden-state array after the run is the specification's. -/
theorem finalH (c : Dev nD) : (dats m 0 c).arrAt 10 cfg0.N = hidArr (V m c main_arg0) (V m c main_arg1) (V m c main_arg2) (V m c main_arg3) (V m c main_v11) (V m c main_v12) (V m c main_v10) :=
  (dats m 0 c).arrAt_eq_of_cover 10 _ (fun t _ => flushedH m c t) coverH

/-- An index of the cell-state array is in point `t`'s block iff each coordinate is in the block's range on its axis. -/
theorem mem_blkC (t : Fin cfg0.N) (i : S16384x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v14_2).slice (win0_11.rect t)).set ↔ _
  rw [View.set_slice_whole, Rect.mem_set_unit]
  exact Iff.rfl

/-- Row `r` of the cell-state array lies in the slab of point `r / 128`, which is written back. -/
theorem coverC (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  have ht : (i 0).val / 128 < cfg0.N := lt_of_lt_of_eq (by omega) hN.symm
  obtain ⟨e0, e1⟩ := slab11 ⟨(i 0).val / 128, ht⟩
  refine ⟨⟨(i 0).val / 128, ht⟩, flush0_11 _, ?_⟩
  rw [mem_blkC]
  intro a
  match a with
  | ⟨0, _⟩ =>
    show win0_11.index ⟨(i 0).val / 128, ht⟩ (0 : Fin 2) * 128 ≤ (i 0).val ∧ (i 0).val < win0_11.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_11.index ⟨(i 0).val / 128, ht⟩ (1 : Fin 2) * 1024 ≤ (i 1).val ∧ (i 1).val < win0_11.index ⟨(i 0).val / 128, ht⟩ (1 : Fin 2) * 1024 + 1024
    rw [e1]; omega

/-- The cell-state array after the run is the specification's. -/
theorem finalC (c : Dev nD) : (dats m 0 c).arrAt 11 cfg0.N = cellArr (V m c main_arg0) (V m c main_arg1) (V m c main_arg2) (V m c main_v11) (V m c main_v12) (V m c main_v10) :=
  (dats m 0 c).arrAt_eq_of_cover 11 _ (fun t _ => flushedC m c t) coverC

/-- An index of the normaliser array is in point `t`'s block iff each coordinate is in the block's range on its axis. -/
theorem mem_blkN (t : Fin cfg0.N) (i : S16384x1024.Idx) :
    i ∈ ((cfg0.win 12).blk t).view.set ↔ ∀ a : Fin 2, win0_12.index t a * S128x1024.size a ≤ (i a).val ∧ (i a).val < win0_12.index t a * S128x1024.size a + S128x1024.size a := by
  show i ∈ ((View.whole main_v14_3).slice (win0_12.rect t)).set ↔ _
  rw [View.set_slice_whole, Rect.mem_set_unit]
  exact Iff.rfl

/-- Row `r` of the normaliser array lies in the slab of point `r / 128`, which is written back. -/
theorem coverN (i : S16384x1024.Idx) :
    ∃ t : Fin cfg0.N, (cfg0.win 12).flush t = true ∧ i ∈ ((cfg0.win 12).blk t).view.set := by
  have hi0 : (i 0).val < 16384 := (i 0).isLt
  have hi1 : (i 1).val < 1024 := (i 1).isLt
  have ht : (i 0).val / 128 < cfg0.N := lt_of_lt_of_eq (by omega) hN.symm
  obtain ⟨e0, e1⟩ := slab12 ⟨(i 0).val / 128, ht⟩
  refine ⟨⟨(i 0).val / 128, ht⟩, flush0_12 _, ?_⟩
  rw [mem_blkN]
  intro a
  match a with
  | ⟨0, _⟩ =>
    show win0_12.index ⟨(i 0).val / 128, ht⟩ (0 : Fin 2) * 128 ≤ (i 0).val ∧ (i 0).val < win0_12.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_12.index ⟨(i 0).val / 128, ht⟩ (1 : Fin 2) * 1024 ≤ (i 1).val ∧ (i 1).val < win0_12.index ⟨(i 0).val / 128, ht⟩ (1 : Fin 2) * 1024 + 1024
    rw [e1]; omega

/-- The normaliser array after the run is the specification's. -/
theorem finalN (c : Dev nD) : (dats m 0 c).arrAt 12 cfg0.N = normArr (V m c main_arg0) (V m c main_arg1) (V m c main_arg3) (V m c main_v11) (V m c main_v12) (V m c main_v10) :=
  (dats m 0 c).arrAt_eq_of_cover 12 _ (fun t _ => flushedN m c t) coverN

/-! ## The run, with every output array named -/

/-- Every weakly fair execution of @main ends, without a fault, with the four output arrays at the specification's
    projection, hidden state, cell state and normaliser of the arrays the region found, and the arguments unchanged. -/
theorem run : θ_run defs (onTc (τ := τ) (main (F := Ideal))) ⟨m, fun _ => 0, ρ⟩ fun r => ∀ c : Dev nD,
      r.2.mem ((c.tc : Thread nD τ).loc main_v14_0) = projArr (V m c main_arg0) (V m c main_arg1) (V m c main_arg2) (V m c main_arg3) (V m c main_v11) (V m c main_v12) (V m c main_v10) (V m c main_v13) (V m c main_arg25)
      ∧ r.2.mem ((c.tc : Thread nD τ).loc main_v14_1) = hidArr (V m c main_arg0) (V m c main_arg1) (V m c main_arg2) (V m c main_arg3) (V m c main_v11) (V m c main_v12) (V m c main_v10)
      ∧ r.2.mem ((c.tc : Thread nD τ).loc main_v14_2) = cellArr (V m c main_arg0) (V m c main_arg1) (V m c main_arg2) (V m c main_v11) (V m c main_v12) (V m c main_v10)
      ∧ r.2.mem ((c.tc : Thread nD τ).loc main_v14_3) = normArr (V m c main_arg0) (V m c main_arg1) (V m c main_arg3) (V m c main_v11) (V m c main_v12) (V m c main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun r h c => ⟨((h c).1 9).trans (finalY m c), ((h c).1 10).trans (finalH m c),
      ((h c).1 11).trans (finalC m c), ((h c).1 12).trans (finalN m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).1 8).trans (((dats m 0 c).arrAt_in 8 rfl _).trans ((A_eq m c 8).trans (V_main_arg25 m c)))⟩)
    (run_main m ρ)

end Cert.KernelIdeal.Val

end
-- ==== Proof.IdealHost.lean ====
/- The operands the host prepares for the kernel, as the region finds them.

   Before the launch the host lays the four gates' input weights side by side, likewise the four gates' recurrent
   weights, adds each gate's three biases (in the order written) and lays the four sums end to end, and narrows the
   two weight blocks and the output weights to half precision — which, on the extended reals, changes nothing. -/
import proofs.«129257_j68642167325024_1_alg».proof.Proof.IdealEntry
import Idealize.ShloMosaic.Lib.StableHlo.Run
import Idealize.ShloMosaic.PureOps.Ideal

set_option maxRecDepth 16384

noncomputable section

namespace Cert.KernelIdeal.Val

open Idealize.ShloMosaic Idealize.ShloMosaic.TcCoe Idealize.ShloMosaic.StableHlo
open Idealize.SL Idealize.SL.Sem
open Cert.KernelIdeal Cert.KernelIdeal.Gen Cert.KernelIdeal.Fr

variable (m : (ℓ : Loc nD τ sig) → Buf (Elt Ideal) ℓ)

/-- The side-by-side input weights. -/
theorem found_Wcat (c : Dev nD) : (V m c main_v11 : Vec Ideal S1024x4096 .bf16)
    = truncf .bf16 (concatenate S1024x4096 1 [⟨S1024x1024, (m ((c : Thread nD τ).loc main_arg4))⟩, ⟨S1024x1024, (m ((c : Thread nD τ).loc main_arg9))⟩, ⟨S1024x1024, (m ((c : Thread nD τ).loc main_arg14))⟩, ⟨S1024x1024, (m ((c : Thread nD τ).loc main_arg19))⟩] concatenates_S1024x1024_S1024x1024_S1024x1024_S1024x1024_S1024x4096_d1 : FVec Ideal S1024x4096 .f32) bitsLt_bf16_f32 := by
  dsimp only [V, hostOps0]; after_results; rfl

/-- The side-by-side recurrent weights. -/
theorem found_Rcat (c : Dev nD) : (V m c main_v12 : Vec Ideal S1024x4096 .bf16)
    = truncf .bf16 (concatenate S1024x4096 1 [⟨S1024x1024, (m ((c : Thread nD τ).loc main_arg6))⟩, ⟨S1024x1024, (m ((c : Thread nD τ).loc main_arg11))⟩, ⟨S1024x1024, (m ((c : Thread nD τ).loc main_arg16))⟩, ⟨S1024x1024, (m ((c : Thread nD τ).loc main_arg21))⟩] concatenates_S1024x1024_S1024x1024_S1024x1024_S1024x1024_S1024x4096_d1 : FVec Ideal S1024x4096 .f32) bitsLt_bf16_f32 := by
  dsimp only [V, hostOps0]; after_results; rfl

/-- The end-to-end biases, each gate's three added in order. -/
theorem found_bcat (c : Dev nD) : (V m c main_v10 : Vec Ideal S4096 .f32)
    = concatenate S4096 0 [⟨S1024, (addf (addf (m ((c : Thread nD τ).loc main_arg5)) (m ((c : Thread nD τ).loc main_arg7))) (m ((c : Thread nD τ).loc main_arg8)) : FVec Ideal S1024 .f32)⟩, ⟨S1024, (addf (addf (m ((c : Thread nD τ).loc main_arg10)) (m ((c : Thread nD τ).loc main_arg12))) (m ((c : Thread nD τ).loc main_arg13)) : FVec Ideal S1024 .f32)⟩, ⟨S1024, (addf (addf (m ((c : Thread nD τ).loc main_arg15)) (m ((c : Thread nD τ).loc main_arg17))) (m ((c : Thread nD τ).loc main_arg18)) : FVec Ideal S1024 .f32)⟩, ⟨S1024, (addf (addf (m ((c : Thread nD τ).loc main_arg20)) (m ((c : Thread nD τ).loc main_arg22))) (m ((c : Thread nD τ).loc main_arg23)) : FVec Ideal S1024 .f32)⟩] concatenates_S1024_S1024_S1024_S1024_S4096_d0 := by
  dsimp only [V, hostOps0]; after_results; rfl

/-- The output weights, narrowed. -/
theorem found_Wy (c : Dev nD) : (V m c main_v13 : Vec Ideal S1024x1024 .bf16)
    = (truncf (F := Ideal) (s := S1024x1024) .bf16 (m ((c : Thread nD τ).loc main_arg24)) bitsLt_bf16_f32 : FVec Ideal S1024x1024 .bf16) := by
  dsimp only [V, hostOps0]; after_results

end Cert.KernelIdeal.Val

end
-- ==== Proof.RefSpec.lean ====
/- The reference's four results are the specification's arrays.

   The reference works on whole arrays: the two products of the 16384-row inputs and previous hidden state with the
   side-by-side weights, their sum, the end-to-end biases spread over the rows, the four runs of 1024 columns cut
   out as the gates, `tanh`, `exp`, and the logistic function spelt `1 / (1 + exp (−z))`, then the cell's arithmetic
   and the last product. Read one operation at a time at row `r` and column `q`, each operand is read at the same
   row (a product's left factor along the row, its right factor down a column), so the result at `(r, q)` is the
   specification's row function of row `r`. The side-by-side weights and end-to-end biases are never opened. -/
import proofs.«129257_j68642167325024_1_alg».proof.Proof.Gen.ReferenceIdeal.Read
import proofs.«129257_j68642167325024_1_alg».proof.Proof.Spec
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.SLstm

variable (x0 x1 x2 x3 : Act.Idx → EReal) (x4 x6 x9 x11 x14 x16 x19 x21 x24 : Sq.Idx → EReal) (x5 x7 x8 x10 x12 x13 x15 x17 x18 x20 x22 x23 x25 : Bias1.Idx → EReal)

/-! ## The constant one, and the reference's index maps as coordinates -/

/-- The single-precision word 0x3F800000 is the number one. -/
theorem ofBits_one_f32 : Ideal.ofBits .f32 0x3F800000#32 = 1 := by
  simp [Ideal.ofBits, Ideal.ieee, -EReal.coe_mul]; norm_num

section Indices
variable (r : Fin 16384) (q k : Fin 1024) (j : Fin 4096)

/-- The first product's left factor sits at row `r`, column `k`. -/
theorem lidx11 : Read.lidx_main_v11 (ix2 r j) k = ix2 r k :=
  funext fun a => Fin.ext (by match a with | ⟨0, _⟩ => rfl | ⟨1, _⟩ => rfl)
/-- The first product's right factor sits at row `k`, column `j`. -/
theorem ridx11 : Read.ridx_main_v11 (ix2 r j) k = ix2 k j :=
  funext fun a => Fin.ext (by match a with | ⟨0, _⟩ => rfl | ⟨1, _⟩ => rfl)
theorem lidx12 : Read.lidx_main_v12 (ix2 r j) k = ix2 r k :=
  funext fun a => Fin.ext (by match a with | ⟨0, _⟩ => rfl | ⟨1, _⟩ => rfl)
theorem ridx12 : Read.ridx_main_v12 (ix2 r j) k = ix2 k j :=
  funext fun a => Fin.ext (by match a with | ⟨0, _⟩ => rfl | ⟨1, _⟩ => rfl)
/-- The bias, spread over the rows, is read at column `j`. -/
theorem idx14_15 : Read.idx_main_v14 (Read.idx_main_v15 (ix2 r j)) = ix1 j :=
  funext fun a => Fin.ext (by match a with | ⟨0, _⟩ => rfl)
/-- The four column blocks of the pre-activations. -/
theorem idx17 : Read.idx_main_v17 (ix2 r q) = ix2 r (gateCol 0 (by decide) q) :=
  funext fun a => Fin.ext (by match a with | ⟨0, _⟩ => rfl | ⟨1, _⟩ => (show _ = _; simp [gateCol]))
theorem idx18 : Read.idx_main_v18 (ix2 r q) = ix2 r (gateCol 1024 (by decide) q) :=
  funext fun a => Fin.ext (by match a with | ⟨0, _⟩ => rfl | ⟨1, _⟩ => rfl)
theorem idx19 : Read.idx_main_v19 (ix2 r q) = ix2 r (gateCol 2048 (by decide) q) :=
  funext fun a => Fin.ext (by match a with | ⟨0, _⟩ => rfl | ⟨1, _⟩ => rfl)
theorem idx20 : Read.idx_main_v20 (ix2 r q) = ix2 r (gateCol 3072 (by decide) q) :=
  funext fun a => Fin.ext (by match a with | ⟨0, _⟩ => rfl | ⟨1, _⟩ => rfl)

end Indices

/-! ## The pre-activations -/

/-- The reference's sum of the two products and the bias, at row `r` and column `j`, is the row's pre-activation. -/
theorem pre_eq (r : Fin 16384) (j : Fin 4096) :
    Read.val_main_v16 (F := Ideal) x0 x1 x4 x5 x6 x7 x8 x9 x10 x11 x12 x13 x14 x15 x16 x17 x18 x19 x20 x21 x22 x23 (ix2 r j)
      = rowPre x0 x1 (Read.val_main_v0 (F := Ideal) x4 x9 x14 x19) (Read.val_main_v1 (F := Ideal) x6 x11 x16 x21) (Read.val_main_v10 (F := Ideal) x5 x7 x8 x10 x12 x13 x15 x17 x18 x20 x22 x23) r j := by
  rw [Read.val_main_v16_apply, Read.val_main_v13_apply, Read.val_main_v11_apply, Read.val_main_v12_apply,
    Read.val_main_v15_apply, Read.val_main_v14_apply]
  simp only [lidx11, ridx11, lidx12, ridx12, idx14_15, Ideal.addf_def]
  rfl

/-! ## The four gates -/

/-- The candidate: the hyperbolic tangent of the first block. -/
theorem zgate_eq (r : Fin 16384) (q : Fin 1024) :
    Read.val_main_v21 (F := Ideal) x0 x1 x4 x5 x6 x7 x8 x9 x10 x11 x12 x13 x14 x15 x16 x17 x18 x19 x20 x21 x22 x23 (ix2 r q)
      = Ideal.tanh ((rowPre x0 x1 (Read.val_main_v0 (F := Ideal) x4 x9 x14 x19) (Read.val_main_v1 (F := Ideal) x6 x11 x16 x21) (Read.val_main_v10 (F := Ideal) x5 x7 x8 x10 x12 x13 x15 x17 x18 x20 x22 x23) r) (gateCol 0 (by decide) q)) := by
  rw [Read.val_main_v21_apply, Read.val_main_v17_apply, idx17, pre_eq, Ideal.hostUnary_tanh_def]

/-- The input gate: the exponential of the second block. -/
theorem igate_eq (r : Fin 16384) (q : Fin 1024) :
    Read.val_main_v22 (F := Ideal) x0 x1 x4 x5 x6 x7 x8 x9 x10 x11 x12 x13 x14 x15 x16 x17 x18 x19 x20 x21 x22 x23 (ix2 r q)
      = Ideal.exp ((rowPre x0 x1 (Read.val_main_v0 (F := Ideal) x4 x9 x14 x19) (Read.val_main_v1 (F := Ideal) x6 x11 x16 x21) (Read.val_main_v10 (F := Ideal) x5 x7 x8 x10 x12 x13 x15 x17 x18 x20 x22 x23) r) (gateCol 1024 (by decide) q)) := by
  rw [Read.val_main_v22_apply, Read.val_main_v18_apply, idx18, pre_eq, Ideal.hostUnary_exp_def]

/-- The forget gate: one over one plus the exponential of minus the third block, which is the logistic function. -/
theorem fgate_eq (r : Fin 16384) (q : Fin 1024) :
    Read.val_main_v28 (F := Ideal) x0 x1 x4 x5 x6 x7 x8 x9 x10 x11 x12 x13 x14 x15 x16 x17 x18 x19 x20 x21 x22 x23 (ix2 r q)
      = Ideal.logistic ((rowPre x0 x1 (Read.val_main_v0 (F := Ideal) x4 x9 x14 x19) (Read.val_main_v1 (F := Ideal) x6 x11 x16 x21) (Read.val_main_v10 (F := Ideal) x5 x7 x8 x10 x12 x13 x15 x17 x18 x20 x22 x23) r) (gateCol 2048 (by decide) q)) := by
  rw [Read.val_main_v28_apply, Read.val_main_v27_apply, Read.val_main_cst_0_apply, Read.val_main_v26_apply,
    Read.val_main_v25_apply, Read.val_main_cst_apply, Read.val_main_v24_apply, Read.val_main_v23_apply,
    Read.val_main_v19_apply, idx19, pre_eq]
  simp only [Ideal.hostDivf_def, Ideal.addf_def, Ideal.hostUnary_exp_def, Ideal.hostNegf_def, Ideal.negf_def,
    Ideal.ofBits_def, ofBits_one_f32]
  rfl

/-- The output gate: the logistic function of the fourth block. -/
theorem ogate_eq (r : Fin 16384) (q : Fin 1024) :
    Read.val_main_v34 (F := Ideal) x0 x1 x4 x5 x6 x7 x8 x9 x10 x11 x12 x13 x14 x15 x16 x17 x18 x19 x20 x21 x22 x23 (ix2 r q)
      = Ideal.logistic ((rowPre x0 x1 (Read.val_main_v0 (F := Ideal) x4 x9 x14 x19) (Read.val_main_v1 (F := Ideal) x6 x11 x16 x21) (Read.val_main_v10 (F := Ideal) x5 x7 x8 x10 x12 x13 x15 x17 x18 x20 x22 x23) r) (gateCol 3072 (by decide) q)) := by
  rw [Read.val_main_v34_apply, Read.val_main_v33_apply, Read.val_main_cst_2_apply, Read.val_main_v32_apply,
    Read.val_main_v31_apply, Read.val_main_cst_1_apply, Read.val_main_v30_apply, Read.val_main_v29_apply,
    Read.val_main_v20_apply, idx20, pre_eq]
  simp only [Ideal.hostDivf_def, Ideal.addf_def, Ideal.hostUnary_exp_def, Ideal.hostNegf_def, Ideal.negf_def,
    Ideal.ofBits_def, ofBits_one_f32]
  rfl

/-! ## The three states at a position -/

/-- The cell state at row `r`, column `q`. -/
theorem cellAt_eq (r : Fin 16384) (q : Fin 1024) :
    Read.val_main_v37 (F := Ideal) x0 x1 x2 x4 x5 x6 x7 x8 x9 x10 x11 x12 x13 x14 x15 x16 x17 x18 x19 x20 x21 x22 x23 (ix2 r q) = cellAt (rowPre x0 x1 (Read.val_main_v0 (F := Ideal) x4 x9 x14 x19) (Read.val_main_v1 (F := Ideal) x6 x11 x16 x21) (Read.val_main_v10 (F := Ideal) x5 x7 x8 x10 x12 x13 x15 x17 x18 x20 x22 x23) r) (x2 (ix2 r q)) q := by
  rw [Read.val_main_v37_apply, Read.val_main_v35_apply, Read.val_main_v36_apply, fgate_eq, igate_eq, zgate_eq]
  simp only [Ideal.addf_def, Ideal.mulf_def]
  rfl

/-- The normaliser at row `r`, column `q`. -/
theorem normAt_eq (r : Fin 16384) (q : Fin 1024) :
    Read.val_main_v39 (F := Ideal) x0 x1 x3 x4 x5 x6 x7 x8 x9 x10 x11 x12 x13 x14 x15 x16 x17 x18 x19 x20 x21 x22 x23 (ix2 r q) = normAt (rowPre x0 x1 (Read.val_main_v0 (F := Ideal) x4 x9 x14 x19) (Read.val_main_v1 (F := Ideal) x6 x11 x16 x21) (Read.val_main_v10 (F := Ideal) x5 x7 x8 x10 x12 x13 x15 x17 x18 x20 x22 x23) r) (x3 (ix2 r q)) q := by
  rw [Read.val_main_v39_apply, Read.val_main_v38_apply, fgate_eq, igate_eq]
  simp only [Ideal.addf_def, Ideal.mulf_def]
  rfl

/-- The hidden state at row `r`, column `q`. -/
theorem hidAt_eq (r : Fin 16384) (q : Fin 1024) :
    Read.val_main_v44 (F := Ideal) x0 x1 x2 x3 x4 x5 x6 x7 x8 x9 x10 x11 x12 x13 x14 x15 x16 x17 x18 x19 x20 x21 x22 x23 (ix2 r q) = hidAt (rowPre x0 x1 (Read.val_main_v0 (F := Ideal) x4 x9 x14 x19) (Read.val_main_v1 (F := Ideal) x6 x11 x16 x21) (Read.val_main_v10 (F := Ideal) x5 x7 x8 x10 x12 x13 x15 x17 x18 x20 x22 x23) r) (x2 (ix2 r q)) (x3 (ix2 r q)) q := by
  rw [Read.val_main_v44_apply, Read.val_main_v43_apply, Read.val_main_v42_apply, Read.val_main_v41_apply,
    Read.val_main_v40_apply, Read.val_main_cst_3_apply, ogate_eq, cellAt_eq, normAt_eq]
  simp only [Ideal.mulf_def, Ideal.hostUnary_tanh_def, Ideal.hostDivf_def, Ideal.addf_def, Ideal.ofBits_def]
  rfl

/-! ## The projection's index maps -/

section ProjIndices
variable (r : Fin 16384) (q k : Fin 1024)
theorem lidx45 : Read.lidx_main_v45 (ix2 r q) k = ix2 r k :=
  funext fun a => Fin.ext (by match a with | ⟨0, _⟩ => rfl | ⟨1, _⟩ => rfl)
theorem ridx45 : Read.ridx_main_v45 (ix2 r q) k = ix2 k q :=
  funext fun a => Fin.ext (by match a with | ⟨0, _⟩ => rfl | ⟨1, _⟩ => rfl)
theorem idx46_47 : Read.idx_main_v46 (Read.idx_main_v47 (ix2 r q)) = ix1 q :=
  funext fun a => Fin.ext (by match a with | ⟨0, _⟩ => rfl)
end ProjIndices

/-- The reference's cell state is the specification's, with the side-by-side weights and end-to-end biases as the
    reference itself builds them. -/
theorem cell_eq : Read.val_main_v37 (F := Ideal) x0 x1 x2 x4 x5 x6 x7 x8 x9 x10 x11 x12 x13 x14 x15 x16 x17 x18 x19 x20 x21 x22 x23 = cellArr x0 x1 x2 (Read.val_main_v0 (F := Ideal) x4 x9 x14 x19) (Read.val_main_v1 (F := Ideal) x6 x11 x16 x21) (Read.val_main_v10 (F := Ideal) x5 x7 x8 x10 x12 x13 x15 x17 x18 x20 x22 x23) := by
  funext i
  obtain ⟨r, q, rfl⟩ : ∃ (r : Fin 16384) (q : Fin 1024), i = ix2 r q := ⟨i 0, i 1, eq_ix2 i⟩
  exact cellAt_eq x0 x1 x2 x4 x6 x9 x11 x14 x16 x19 x21 x5 x7 x8 x10 x12 x13 x15 x17 x18 x20 x22 x23 r q

/-- The reference's normaliser. -/
theorem norm_eq : Read.val_main_v39 (F := Ideal) x0 x1 x3 x4 x5 x6 x7 x8 x9 x10 x11 x12 x13 x14 x15 x16 x17 x18 x19 x20 x21 x22 x23 = normArr x0 x1 x3 (Read.val_main_v0 (F := Ideal) x4 x9 x14 x19) (Read.val_main_v1 (F := Ideal) x6 x11 x16 x21) (Read.val_main_v10 (F := Ideal) x5 x7 x8 x10 x12 x13 x15 x17 x18 x20 x22 x23) := by
  funext i
  obtain ⟨r, q, rfl⟩ : ∃ (r : Fin 16384) (q : Fin 1024), i = ix2 r q := ⟨i 0, i 1, eq_ix2 i⟩
  exact normAt_eq x0 x1 x3 x4 x6 x9 x11 x14 x16 x19 x21 x5 x7 x8 x10 x12 x13 x15 x17 x18 x20 x22 x23 r q

/-- The reference's hidden state. -/
theorem hid_eq : Read.val_main_v44 (F := Ideal) x0 x1 x2 x3 x4 x5 x6 x7 x8 x9 x10 x11 x12 x13 x14 x15 x16 x17 x18 x19 x20 x21 x22 x23 = hidArr x0 x1 x2 x3 (Read.val_main_v0 (F := Ideal) x4 x9 x14 x19) (Read.val_main_v1 (F := Ideal) x6 x11 x16 x21) (Read.val_main_v10 (F := Ideal) x5 x7 x8 x10 x12 x13 x15 x17 x18 x20 x22 x23) := by
  funext i
  obtain ⟨r, q, rfl⟩ : ∃ (r : Fin 16384) (q : Fin 1024), i = ix2 r q := ⟨i 0, i 1, eq_ix2 i⟩
  exact hidAt_eq x0 x1 x2 x3 x4 x6 x9 x11 x14 x16 x19 x21 x5 x7 x8 x10 x12 x13 x15 x17 x18 x20 x22 x23 r q

/-- The reference's projection. -/
theorem proj_eq : Read.val_main_v48 (F := Ideal) x0 x1 x2 x3 x4 x5 x6 x7 x8 x9 x10 x11 x12 x13 x14 x15 x16 x17 x18 x19 x20 x21 x22 x23 x24 x25 = projArr x0 x1 x2 x3 (Read.val_main_v0 (F := Ideal) x4 x9 x14 x19) (Read.val_main_v1 (F := Ideal) x6 x11 x16 x21) (Read.val_main_v10 (F := Ideal) x5 x7 x8 x10 x12 x13 x15 x17 x18 x20 x22 x23) x24 x25 := by
  funext i
  obtain ⟨r, q, rfl⟩ : ∃ (r : Fin 16384) (q : Fin 1024), i = ix2 r q := ⟨i 0, i 1, eq_ix2 i⟩
  rw [Read.val_main_v48_apply, Read.val_main_v45_apply, Read.val_main_v47_apply, Read.val_main_v46_apply, idx46_47]
  simp only [lidx45, ridx45, hidAt_eq, Ideal.addf_def]
  rfl

end Cert.ReferenceIdeal.RefValue

end
-- ==== Proof.lean ====
/- The certificate of one sLSTM cell step: a fused kernel against its plain reference.

   Both programs take the inputs `x`, the previous hidden state, cell state and normaliser (16384 rows of 1024), four
   gates' input weights, recurrent weights and three biases each, and output weights and bias, and return the
   projection `Y`, the new hidden state `H`, the new cell state `C` and the new normaliser `N` of the cell
   (Proof/Spec.lean states them). The kernel has the host lay the gates' weights side by side and add and join the
   biases, then works through the rows in 128 slabs of 128, each slab in one step: two matrix products for the
   pre-activations, the gates `tanh`, `exp`, `σ`, `σ` on the four runs of 1024 columns, the cell's arithmetic, and a
   third product for the projection. The reference does the same on whole arrays, spelling `σ z` as `1 / (1 + exp (−z))`.
   On the extended reals the two agree entry by entry with no condition on the arguments: a change of float format
   is the identity, the matrix unit's product into a zero accumulator and the host's product are the same sum, `σ`
   is by definition that quotient, and every sum is associated the same way on both sides.

   The frames: each kernel program runs its host operations and then all 128 grid points to the end, faults nowhere,
   and no operation writes an argument (Proof/IdealRun.lean and its copy for the word-level program); the reference
   is a list of host operations. Nothing was rewritten when the kernel was idealized, so that claim is empty.
   The value claim: the kernel's four arrays after its run (Proof/IdealValue.lean) and the reference's four results
   (Proof/RefSpec.lean) are the same four functions of arguments that agree. -/
import proofs.«129257_j68642167325024_1_alg».proof.Defs
import proofs.«129257_j68642167325024_1_alg».proof.Proof.Gen.Kernel
import proofs.«129257_j68642167325024_1_alg».proof.Proof.Gen.KernelIdeal
import proofs.«129257_j68642167325024_1_alg».proof.Proof.Gen.ReferenceIdeal
import proofs.«129257_j68642167325024_1_alg».proof.Proof.Gen.Pre_finite_inputs
import proofs.«129257_j68642167325024_1_alg».proof.Proof.Gen.ReferenceIdeal.Run
import proofs.«129257_j68642167325024_1_alg».proof.Proof.Gen.ReferenceIdeal.Read
import proofs.«129257_j68642167325024_1_alg».proof.Proof.KernelRun
import proofs.«129257_j68642167325024_1_alg».proof.Proof.IdealRun
import proofs.«129257_j68642167325024_1_alg».proof.Proof.IdealValue
import proofs.«129257_j68642167325024_1_alg».proof.Proof.IdealHost
import proofs.«129257_j68642167325024_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to its end, faults nowhere and leaves its arguments unchanged. -/
theorem frame_kernel : Cert.frame_Kernel := fun m ρ _ => Cert.Kernel.Fr.frame m ρ

/-- So does the idealized kernel program. -/
theorem frame_kernelIdeal : Cert.frame_KernelIdeal := fun m ρ _ => Cert.KernelIdeal.Fr.frame m ρ

/-- The reference is host operations only: its run, with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- No rewrite was applied when the kernel was idealized. -/
theorem preserves : Cert.preserves_Kernel_KernelIdeal := trivial

set_option maxHeartbeats 1600000 in
/-- From arguments that agree, the kernel's four output arrays and the reference's four results are the
    specification's projection, hidden state, cell state and normaliser of those arguments: the operands the host
    prepares for the kernel are the reference's own side-by-side weights and end-to-end biases, narrowing aside. -/
theorem algebraic : Cert.algebraic_KernelIdeal_ReferenceIdeal := by
  intro m ρ m' ρ' _ hagree
  refine ⟨fun c => Cert.SLstm.projArr (Cert.KernelIdeal.Fr.V m c Cert.KernelIdeal.main_arg0) (Cert.KernelIdeal.Fr.V m c Cert.KernelIdeal.main_arg1) (Cert.KernelIdeal.Fr.V m c Cert.KernelIdeal.main_arg2) (Cert.KernelIdeal.Fr.V m c Cert.KernelIdeal.main_arg3) (Cert.KernelIdeal.Fr.V m c Cert.KernelIdeal.main_v11) (Cert.KernelIdeal.Fr.V m c Cert.KernelIdeal.main_v12) (Cert.KernelIdeal.Fr.V m c Cert.KernelIdeal.main_v10) (Cert.KernelIdeal.Fr.V m c Cert.KernelIdeal.main_v13) (Cert.KernelIdeal.Fr.V m c Cert.KernelIdeal.main_arg25), fun c => Cert.SLstm.hidArr (Cert.KernelIdeal.Fr.V m c Cert.KernelIdeal.main_arg0) (Cert.KernelIdeal.Fr.V m c Cert.KernelIdeal.main_arg1) (Cert.KernelIdeal.Fr.V m c Cert.KernelIdeal.main_arg2) (Cert.KernelIdeal.Fr.V m c Cert.KernelIdeal.main_arg3) (Cert.KernelIdeal.Fr.V m c Cert.KernelIdeal.main_v11) (Cert.KernelIdeal.Fr.V m c Cert.KernelIdeal.main_v12) (Cert.KernelIdeal.Fr.V m c Cert.KernelIdeal.main_v10), fun c => Cert.SLstm.cellArr (Cert.KernelIdeal.Fr.V m c Cert.KernelIdeal.main_arg0) (Cert.KernelIdeal.Fr.V m c Cert.KernelIdeal.main_arg1) (Cert.KernelIdeal.Fr.V m c Cert.KernelIdeal.main_arg2) (Cert.KernelIdeal.Fr.V m c Cert.KernelIdeal.main_v11) (Cert.KernelIdeal.Fr.V m c Cert.KernelIdeal.main_v12) (Cert.KernelIdeal.Fr.V m c Cert.KernelIdeal.main_v10), fun c => Cert.SLstm.normArr (Cert.KernelIdeal.Fr.V m c Cert.KernelIdeal.main_arg0) (Cert.KernelIdeal.Fr.V m c Cert.KernelIdeal.main_arg1) (Cert.KernelIdeal.Fr.V m c Cert.KernelIdeal.main_arg3) (Cert.KernelIdeal.Fr.V m c Cert.KernelIdeal.main_v11) (Cert.KernelIdeal.Fr.V m c Cert.KernelIdeal.main_v12) (Cert.KernelIdeal.Fr.V m c Cert.KernelIdeal.main_v10), Cert.KernelIdeal.Val.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5, a6, a7, a8, a9, a10, a11, a12, a13, a14, a15, a16, a17, a18, a19, a20, a21, a22, a23, a24, a25⟩ := hagree c
  refine ⟨h0.trans ?_, h1.trans ?_, h2.trans ?_, h3.trans ?_, hargs⟩
  · beta_reduce
    rw [Cert.ReferenceIdeal.Read.val_main_v48_eq, a0, a1, a2, a3, a4, a5, a6, a7, a8, a9, a10, a11, a12, a13, a14, a15, a16, a17, a18, a19, a20, a21, a22, a23, a24, a25, Cert.KernelIdeal.Fr.V_main_arg0 m c, Cert.KernelIdeal.Fr.V_main_arg1 m c, Cert.KernelIdeal.Fr.V_main_arg2 m c, Cert.KernelIdeal.Fr.V_main_arg3 m c, Cert.KernelIdeal.Fr.V_main_arg25 m c, Cert.KernelIdeal.Val.found_Wcat m c, Cert.KernelIdeal.Val.found_Rcat m c, Cert.KernelIdeal.Val.found_bcat m c, Cert.KernelIdeal.Val.found_Wy m c]
    exact Cert.ReferenceIdeal.RefValue.proj_eq (x0 := (m ((c.tc : Thread Cert.KernelIdeal.nD Cert.KernelIdeal.τ).loc Cert.KernelIdeal.main_arg0))) (x1 := (m ((c.tc : Thread Cert.KernelIdeal.nD Cert.KernelIdeal.τ).loc Cert.KernelIdeal.main_arg1))) (x2 := (m ((c.tc : Thread Cert.KernelIdeal.nD Cert.KernelIdeal.τ).loc Cert.KernelIdeal.main_arg2))) (x3 := (m ((c.tc : Thread Cert.KernelIdeal.nD Cert.KernelIdeal.τ).loc Cert.KernelIdeal.main_arg3))) (x4 := (m ((c.tc : Thread Cert.KernelIdeal.nD Cert.KernelIdeal.τ).loc Cert.KernelIdeal.main_arg4))) (x6 := (m ((c.tc : Thread Cert.KernelIdeal.nD Cert.KernelIdeal.τ).loc Cert.KernelIdeal.main_arg6))) (x9 := (m ((c.tc : Thread Cert.KernelIdeal.nD Cert.KernelIdeal.τ).loc Cert.KernelIdeal.main_arg9))) (x11 := (m ((c.tc : Thread Cert.KernelIdeal.nD Cert.KernelIdeal.τ).loc Cert.KernelIdeal.main_arg11))) (x14 := (m ((c.tc : Thread Cert.KernelIdeal.nD Cert.KernelIdeal.τ).loc Cert.KernelIdeal.main_arg14))) (x16 := (m ((c.tc : Thread Cert.KernelIdeal.nD Cert.KernelIdeal.τ).loc Cert.KernelIdeal.main_arg16))) (x19 := (m ((c.tc : Thread Cert.KernelIdeal.nD Cert.KernelIdeal.τ).loc Cert.KernelIdeal.main_arg19))) (x21 := (m ((c.tc : Thread Cert.KernelIdeal.nD Cert.KernelIdeal.τ).loc Cert.KernelIdeal.main_arg21))) (x24 := (m ((c.tc : Thread Cert.KernelIdeal.nD Cert.KernelIdeal.τ).loc Cert.KernelIdeal.main_arg24))) (x5 := (m ((c.tc : Thread Cert.KernelIdeal.nD Cert.KernelIdeal.τ).loc Cert.KernelIdeal.main_arg5))) (x7 := (m ((c.tc : Thread Cert.KernelIdeal.nD Cert.KernelIdeal.τ).loc Cert.KernelIdeal.main_arg7))) (x8 := (m ((c.tc : Thread Cert.KernelIdeal.nD Cert.KernelIdeal.τ).loc Cert.KernelIdeal.main_arg8))) (x10 := (m ((c.tc : Thread Cert.KernelIdeal.nD Cert.KernelIdeal.τ).loc Cert.KernelIdeal.main_arg10))) (x12 := (m ((c.tc : Thread Cert.KernelIdeal.nD Cert.KernelIdeal.τ).loc Cert.KernelIdeal.main_arg12))) (x13 := (m ((c.tc : Thread Cert.KernelIdeal.nD Cert.KernelIdeal.τ).loc Cert.KernelIdeal.main_arg13))) (x15 := (m ((c.tc : Thread Cert.KernelIdeal.nD Cert.KernelIdeal.τ).loc Cert.KernelIdeal.main_arg15))) (x17 := (m ((c.tc : Thread Cert.KernelIdeal.nD Cert.KernelIdeal.τ).loc Cert.KernelIdeal.main_arg17))) (x18 := (m ((c.tc : Thread Cert.KernelIdeal.nD Cert.KernelIdeal.τ).loc Cert.KernelIdeal.main_arg18))) (x20 := (m ((c.tc : Thread Cert.KernelIdeal.nD Cert.KernelIdeal.τ).loc Cert.KernelIdeal.main_arg20))) (x22 := (m ((c.tc : Thread Cert.KernelIdeal.nD Cert.KernelIdeal.τ).loc Cert.KernelIdeal.main_arg22))) (x23 := (m ((c.tc : Thread Cert.KernelIdeal.nD Cert.KernelIdeal.τ).loc Cert.KernelIdeal.main_arg23))) (x25 := (m ((c.tc : Thread Cert.KernelIdeal.nD Cert.KernelIdeal.τ).loc Cert.KernelIdeal.main_arg25)))
  · beta_reduce
    rw [Cert.ReferenceIdeal.Read.val_main_v44_eq, a0, a1, a2, a3, a4, a5, a6, a7, a8, a9, a10, a11, a12, a13, a14, a15, a16, a17, a18, a19, a20, a21, a22, a23, Cert.KernelIdeal.Fr.V_main_arg0 m c, Cert.KernelIdeal.Fr.V_main_arg1 m c, Cert.KernelIdeal.Fr.V_main_arg2 m c, Cert.KernelIdeal.Fr.V_main_arg3 m c, Cert.KernelIdeal.Val.found_Wcat m c, Cert.KernelIdeal.Val.found_Rcat m c, Cert.KernelIdeal.Val.found_bcat m c]
    exact Cert.ReferenceIdeal.RefValue.hid_eq (x0 := (m ((c.tc : Thread Cert.KernelIdeal.nD Cert.KernelIdeal.τ).loc Cert.KernelIdeal.main_arg0))) (x1 := (m ((c.tc : Thread Cert.KernelIdeal.nD Cert.KernelIdeal.τ).loc Cert.KernelIdeal.main_arg1))) (x2 := (m ((c.tc : Thread Cert.KernelIdeal.nD Cert.KernelIdeal.τ).loc Cert.KernelIdeal.main_arg2))) (x3 := (m ((c.tc : Thread Cert.KernelIdeal.nD Cert.KernelIdeal.τ).loc Cert.KernelIdeal.main_arg3))) (x4 := (m ((c.tc : Thread Cert.KernelIdeal.nD Cert.KernelIdeal.τ).loc Cert.KernelIdeal.main_arg4))) (x6 := (m ((c.tc : Thread Cert.KernelIdeal.nD Cert.KernelIdeal.τ).loc Cert.KernelIdeal.main_arg6))) (x9 := (m ((c.tc : Thread Cert.KernelIdeal.nD Cert.KernelIdeal.τ).loc Cert.KernelIdeal.main_arg9))) (x11 := (m ((c.tc : Thread Cert.KernelIdeal.nD Cert.KernelIdeal.τ).loc Cert.KernelIdeal.main_arg11))) (x14 := (m ((c.tc : Thread Cert.KernelIdeal.nD Cert.KernelIdeal.τ).loc Cert.KernelIdeal.main_arg14))) (x16 := (m ((c.tc : Thread Cert.KernelIdeal.nD Cert.KernelIdeal.τ).loc Cert.KernelIdeal.main_arg16))) (x19 := (m ((c.tc : Thread Cert.KernelIdeal.nD Cert.KernelIdeal.τ).loc Cert.KernelIdeal.main_arg19))) (x21 := (m ((c.tc : Thread Cert.KernelIdeal.nD Cert.KernelIdeal.τ).loc Cert.KernelIdeal.main_arg21))) (x5 := (m ((c.tc : Thread Cert.KernelIdeal.nD Cert.KernelIdeal.τ).loc Cert.KernelIdeal.main_arg5))) (x7 := (m ((c.tc : Thread Cert.KernelIdeal.nD Cert.KernelIdeal.τ).loc Cert.KernelIdeal.main_arg7))) (x8 := (m ((c.tc : Thread Cert.KernelIdeal.nD Cert.KernelIdeal.τ).loc Cert.KernelIdeal.main_arg8))) (x10 := (m ((c.tc : Thread Cert.KernelIdeal.nD Cert.KernelIdeal.τ).loc Cert.KernelIdeal.main_arg10))) (x12 := (m ((c.tc : Thread Cert.KernelIdeal.nD Cert.KernelIdeal.τ).loc Cert.KernelIdeal.main_arg12))) (x13 := (m ((c.tc : Thread Cert.KernelIdeal.nD Cert.KernelIdeal.τ).loc Cert.KernelIdeal.main_arg13))) (x15 := (m ((c.tc : Thread Cert.KernelIdeal.nD Cert.KernelIdeal.τ).loc Cert.KernelIdeal.main_arg15))) (x17 := (m ((c.tc : Thread Cert.KernelIdeal.nD Cert.KernelIdeal.τ).loc Cert.KernelIdeal.main_arg17))) (x18 := (m ((c.tc : Thread Cert.KernelIdeal.nD Cert.KernelIdeal.τ).loc Cert.KernelIdeal.main_arg18))) (x20 := (m ((c.tc : Thread Cert.KernelIdeal.nD Cert.KernelIdeal.τ).loc Cert.KernelIdeal.main_arg20))) (x22 := (m ((c.tc : Thread Cert.KernelIdeal.nD Cert.KernelIdeal.τ).loc Cert.KernelIdeal.main_arg22))) (x23 := (m ((c.tc : Thread Cert.KernelIdeal.nD Cert.KernelIdeal.τ).loc Cert.KernelIdeal.main_arg23)))
  · beta_reduce
    rw [Cert.ReferenceIdeal.Read.val_main_v37_eq, a0, a1, a2, a4, a5, a6, a7, a8, a9, a10, a11, a12, a13, a14, a15, a16, a17, a18, a19, a20, a21, a22, a23, Cert.KernelIdeal.Fr.V_main_arg0 m c, Cert.KernelIdeal.Fr.V_main_arg1 m c, Cert.KernelIdeal.Fr.V_main_arg2 m c, Cert.KernelIdeal.Val.found_Wcat m c, Cert.KernelIdeal.Val.found_Rcat m c, Cert.KernelIdeal.Val.found_bcat m c]
    exact Cert.ReferenceIdeal.RefValue.cell_eq (x0 := (m ((c.tc : Thread Cert.KernelIdeal.nD Cert.KernelIdeal.τ).loc Cert.KernelIdeal.main_arg0))) (x1 := (m ((c.tc : Thread Cert.KernelIdeal.nD Cert.KernelIdeal.τ).loc Cert.KernelIdeal.main_arg1))) (x2 := (m ((c.tc : Thread Cert.KernelIdeal.nD Cert.KernelIdeal.τ).loc Cert.KernelIdeal.main_arg2))) (x4 := (m ((c.tc : Thread Cert.KernelIdeal.nD Cert.KernelIdeal.τ).loc Cert.KernelIdeal.main_arg4))) (x6 := (m ((c.tc : Thread Cert.KernelIdeal.nD Cert.KernelIdeal.τ).loc Cert.KernelIdeal.main_arg6))) (x9 := (m ((c.tc : Thread Cert.KernelIdeal.nD Cert.KernelIdeal.τ).loc Cert.KernelIdeal.main_arg9))) (x11 := (m ((c.tc : Thread Cert.KernelIdeal.nD Cert.KernelIdeal.τ).loc Cert.KernelIdeal.main_arg11))) (x14 := (m ((c.tc : Thread Cert.KernelIdeal.nD Cert.KernelIdeal.τ).loc Cert.KernelIdeal.main_arg14))) (x16 := (m ((c.tc : Thread Cert.KernelIdeal.nD Cert.KernelIdeal.τ).loc Cert.KernelIdeal.main_arg16))) (x19 := (m ((c.tc : Thread Cert.KernelIdeal.nD Cert.KernelIdeal.τ).loc Cert.KernelIdeal.main_arg19))) (x21 := (m ((c.tc : Thread Cert.KernelIdeal.nD Cert.KernelIdeal.τ).loc Cert.KernelIdeal.main_arg21))) (x5 := (m ((c.tc : Thread Cert.KernelIdeal.nD Cert.KernelIdeal.τ).loc Cert.KernelIdeal.main_arg5))) (x7 := (m ((c.tc : Thread Cert.KernelIdeal.nD Cert.KernelIdeal.τ).loc Cert.KernelIdeal.main_arg7))) (x8 := (m ((c.tc : Thread Cert.KernelIdeal.nD Cert.KernelIdeal.τ).loc Cert.KernelIdeal.main_arg8))) (x10 := (m ((c.tc : Thread Cert.KernelIdeal.nD Cert.KernelIdeal.τ).loc Cert.KernelIdeal.main_arg10))) (x12 := (m ((c.tc : Thread Cert.KernelIdeal.nD Cert.KernelIdeal.τ).loc Cert.KernelIdeal.main_arg12))) (x13 := (m ((c.tc : Thread Cert.KernelIdeal.nD Cert.KernelIdeal.τ).loc Cert.KernelIdeal.main_arg13))) (x15 := (m ((c.tc : Thread Cert.KernelIdeal.nD Cert.KernelIdeal.τ).loc Cert.KernelIdeal.main_arg15))) (x17 := (m ((c.tc : Thread Cert.KernelIdeal.nD Cert.KernelIdeal.τ).loc Cert.KernelIdeal.main_arg17))) (x18 := (m ((c.tc : Thread Cert.KernelIdeal.nD Cert.KernelIdeal.τ).loc Cert.KernelIdeal.main_arg18))) (x20 := (m ((c.tc : Thread Cert.KernelIdeal.nD Cert.KernelIdeal.τ).loc Cert.KernelIdeal.main_arg20))) (x22 := (m ((c.tc : Thread Cert.KernelIdeal.nD Cert.KernelIdeal.τ).loc Cert.KernelIdeal.main_arg22))) (x23 := (m ((c.tc : Thread Cert.KernelIdeal.nD Cert.KernelIdeal.τ).loc Cert.KernelIdeal.main_arg23)))
  · beta_reduce
    rw [a0, a1, a3, a4, a5, a6, a7, a8, a9, a10, a11, a12, a13, a14, a15, a16, a17, a18, a19, a20, a21, a22, a23, Cert.KernelIdeal.Fr.V_main_arg0 m c, Cert.KernelIdeal.Fr.V_main_arg1 m c, Cert.KernelIdeal.Fr.V_main_arg3 m c, Cert.KernelIdeal.Val.found_Wcat m c, Cert.KernelIdeal.Val.found_Rcat m c, Cert.KernelIdeal.Val.found_bcat m c]
    exact (Cert.ReferenceIdeal.Read.val_main_v39_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).trans
      (Cert.ReferenceIdeal.RefValue.norm_eq (x0 := (m ((c.tc : Thread Cert.KernelIdeal.nD Cert.KernelIdeal.τ).loc Cert.KernelIdeal.main_arg0))) (x1 := (m ((c.tc : Thread Cert.KernelIdeal.nD Cert.KernelIdeal.τ).loc Cert.KernelIdeal.main_arg1))) (x3 := (m ((c.tc : Thread Cert.KernelIdeal.nD Cert.KernelIdeal.τ).loc Cert.KernelIdeal.main_arg3))) (x4 := (m ((c.tc : Thread Cert.KernelIdeal.nD Cert.KernelIdeal.τ).loc Cert.KernelIdeal.main_arg4))) (x6 := (m ((c.tc : Thread Cert.KernelIdeal.nD Cert.KernelIdeal.τ).loc Cert.KernelIdeal.main_arg6))) (x9 := (m ((c.tc : Thread Cert.KernelIdeal.nD Cert.KernelIdeal.τ).loc Cert.KernelIdeal.main_arg9))) (x11 := (m ((c.tc : Thread Cert.KernelIdeal.nD Cert.KernelIdeal.τ).loc Cert.KernelIdeal.main_arg11))) (x14 := (m ((c.tc : Thread Cert.KernelIdeal.nD Cert.KernelIdeal.τ).loc Cert.KernelIdeal.main_arg14))) (x16 := (m ((c.tc : Thread Cert.KernelIdeal.nD Cert.KernelIdeal.τ).loc Cert.KernelIdeal.main_arg16))) (x19 := (m ((c.tc : Thread Cert.KernelIdeal.nD Cert.KernelIdeal.τ).loc Cert.KernelIdeal.main_arg19))) (x21 := (m ((c.tc : Thread Cert.KernelIdeal.nD Cert.KernelIdeal.τ).loc Cert.KernelIdeal.main_arg21))) (x5 := (m ((c.tc : Thread Cert.KernelIdeal.nD Cert.KernelIdeal.τ).loc Cert.KernelIdeal.main_arg5))) (x7 := (m ((c.tc : Thread Cert.KernelIdeal.nD Cert.KernelIdeal.τ).loc Cert.KernelIdeal.main_arg7))) (x8 := (m ((c.tc : Thread Cert.KernelIdeal.nD Cert.KernelIdeal.τ).loc Cert.KernelIdeal.main_arg8))) (x10 := (m ((c.tc : Thread Cert.KernelIdeal.nD Cert.KernelIdeal.τ).loc Cert.KernelIdeal.main_arg10))) (x12 := (m ((c.tc : Thread Cert.KernelIdeal.nD Cert.KernelIdeal.τ).loc Cert.KernelIdeal.main_arg12))) (x13 := (m ((c.tc : Thread Cert.KernelIdeal.nD Cert.KernelIdeal.τ).loc Cert.KernelIdeal.main_arg13))) (x15 := (m ((c.tc : Thread Cert.KernelIdeal.nD Cert.KernelIdeal.τ).loc Cert.KernelIdeal.main_arg15))) (x17 := (m ((c.tc : Thread Cert.KernelIdeal.nD Cert.KernelIdeal.τ).loc Cert.KernelIdeal.main_arg17))) (x18 := (m ((c.tc : Thread Cert.KernelIdeal.nD Cert.KernelIdeal.τ).loc Cert.KernelIdeal.main_arg18))) (x20 := (m ((c.tc : Thread Cert.KernelIdeal.nD Cert.KernelIdeal.τ).loc Cert.KernelIdeal.main_arg20))) (x22 := (m ((c.tc : Thread Cert.KernelIdeal.nD Cert.KernelIdeal.τ).loc Cert.KernelIdeal.main_arg22))) (x23 := (m ((c.tc : Thread Cert.KernelIdeal.nD Cert.KernelIdeal.τ).loc Cert.KernelIdeal.main_arg23))))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
